-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S8x2048x8192 : Shape := ⟨3, ![8, 2048, 8192]⟩
abbrev S8x4096x2048 : Shape := ⟨3, ![8, 4096, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8x2048x8192 : S_.BroadcastsInDim S8x2048x8192 (![] : Fin 0 → Fin S8x2048x8192.rank)
  reducesTo_S8x2048x8192_S_d0_1_2 : S8x2048x8192.ReducesTo [0, 1, 2] S_
  bcast_S_S8x4096x2048 : S_.BroadcastsInDim S8x4096x2048 (![] : Fin 0 → Fin S8x4096x2048.rank)
  reducesTo_S8x4096x2048_S_d0_1_2 : S8x4096x2048.ReducesTo [0, 1, 2] S_

variable [Facts]

def fn {F : FTy → Type} [FloatOps F] (main_arg0 : FVec F S8192x2048 .f32) (main_arg1 : FVec F S8x2048x8192 .f32) (main_arg2 : FVec F S8x4096x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8x2048x8192 .f32 := Host.absf main_arg1
  let main_cst_0 : FVec F S_ .f32 := constant S_ .f32 0x7F800000#32
  let main_v5 : FVec F S8x2048x8192 .f32 := broadcastInDim S8x2048x8192 ![] bcast_S_S8x2048x8192 main_cst_0
  let main_v6 : IVec S8x2048x8192 1 := cmpf .olt main_v4 main_v5
  let main_c_1 : IVec S_ 1 := constantI S_ 1 1#1
  let main_v7 : IVec S_ 1 := (fun x v => Host.reduce IntOp.andi x v reducesTo_S8x2048x8192_S_d0_1_2 h_S_) main_v6 main_c_1
  let main_v8 : IVec S_ 1 := andi main_v3 main_v7
  let main_v9 : FVec F S8x4096x2048 .f32 := Host.absf main_arg2
  let main_cst_2 : FVec F S_ .f32 := constant S_ .f32 0x7F800000#32
  let main_v10 : FVec F S8x4096x2048 .f32 := broadcastInDim S8x4096x2048 ![] bcast_S_S8x4096x2048 main_cst_2
  let main_v11 : IVec S8x4096x2048 1 := cmpf .olt main_v9 main_v10
  let main_c_3 : IVec S_ 1 := constantI S_ 1 1#1
  let main_v12 : IVec S_ 1 := (fun x v => Host.reduce IntOp.andi x v reducesTo_S8x4096x2048_S_d0_1_2 h_S_) main_v11 main_c_3
  let main_v13 : IVec S_ 1 := andi main_v8 main_v12
  main_v13
-- ==== Kernel.lean ====
abbrev S8192x2048 : Shape := ⟨2, ![8192, 2048]⟩
abbrev S8x2048x8192 : Shape := ⟨3, ![8, 2048, 8192]⟩
abbrev S8x4096x2048 : Shape := ⟨3, ![8, 4096, 2048]⟩
abbrev S8x1024x2048 : Shape := ⟨3, ![8, 1024, 2048]⟩
abbrev S8x1024x4096 : Shape := ⟨3, ![8, 1024, 4096]⟩
abbrev S1x1024x2048 : Shape := ⟨3, ![1, 1024, 2048]⟩
abbrev S1x2048x512 : Shape := ⟨3, ![1, 2048, 512]⟩
abbrev S1x1024x512 : Shape := ⟨3, ![1, 1024, 512]⟩
abbrev S1024x2048 : Shape := ⟨2, ![1024, 2048]⟩
abbrev S2048x512 : Shape := ⟨2, ![2048, 512]⟩
abbrev S1024x512 : Shape := ⟨2, ![1024, 512]⟩
abbrev S1x512x2048 : Shape := ⟨3, ![1, 512, 2048]⟩
abbrev S512x2048 : Shape := ⟨2, ![512, 2048]⟩

abbrev nBuf : Space → Nat
  | .hbm => 7
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S8x2048x8192, .f32⟩
  | .hbm, ⟨2, _⟩ => ⟨S8x4096x2048, .f32⟩
  | .hbm, ⟨3, _⟩ => ⟨S8x1024x2048, .f32⟩
  | .hbm, ⟨4, _⟩ => ⟨S8x1024x4096, .bf16⟩
  | .hbm, ⟨5, _⟩ => ⟨S8x1024x2048, .f32⟩
  | .hbm, ⟨6, _⟩ => ⟨S8192x2048, .f32⟩
  | .local _ .vmem, ⟨0, _⟩ => ⟨S1x1024x2048, .f32⟩
  | .local _ .vmem, ⟨1, _⟩ => ⟨S1x1024x2048, .f32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x1024x512, .bf16⟩
  | .local _ .vmem, ⟨7, _⟩ => ⟨S1x1024x512, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x512x2048, .f32⟩
  | .local _ .vmem, ⟨11, _⟩ => ⟨S1x512x2048, .f32⟩
  | .local _ .vmem, ⟨12, _⟩ => ⟨S1x1024x2048, .f32⟩
  | .local _ .vmem, ⟨13, _⟩ => ⟨S1x1024x2048, .f32⟩
  | .local _ .vmem, ⟨14, _⟩ => ⟨S1024x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_10 : BitVec 32 := 0#32
  let v16 : BitVec 1 := Scalar.cmpi .ne v15 c0_i32_10
  v16

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x512x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1024x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  shapeCasts_S8192x2048_S8x1024x2048 : S8192x2048.ShapeCasts S8x1024x2048
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  bitsLt_bf16_f32 : FTy.bits .bf16 < FTy.bits .f32
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  shapeCasts_S1024x512_S1x1024x512 : S1024x512.ShapeCasts S1x1024x512
  packedbf16_S1x1024x512_S1x1024x512_0_0_0 : (Rect.unit (s := S1x1024x512) ![0, 0, 0] S1x1024x512.size inb_S1x1024x512_S1x1024x512_0_0_0).PackedRows (EltTy.packing .bf16)
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S1024x2048_S1x1024x2048 : S1024x2048.ShapeCasts S1x1024x2048
  shapeCasts_S8x1024x2048_S8192x2048 : S8x1024x2048.ShapeCasts S8192x2048
  dot_S1024x2048_S2048x512_S1024x512_1_0_0_1_n_n_wf : DotDims.WF S1024x2048 S2048x512 S1024x512 [1] [0] [0] [1] [] []
  dot_S1024x512_S512x2048_S1024x2048_1_0_0_1_n_n_wf : DotDims.WF S1024x512 S512x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x2048.size a ≤ S8x1024x2048.size a
  hwx0_0 : ∀ i : grid0.Coords, EltTy.bits .f32 = 32 ∨ (Rect.block (s := S8x1024x2048) S1x1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x512.size a ≤ S8x2048x8192.size a
  hwx0_1 : ∀ i : grid0.Coords, EltTy.bits .f32 = 32 ∨ (Rect.block (s := S8x2048x8192) S1x2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x512.size a ≤ S8x2048x8192.size a
  hwx0_2 : ∀ i : grid0.Coords, EltTy.bits .f32 = 32 ∨ (Rect.block (s := S8x2048x8192) S1x2048x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x512.size a ≤ S8x1024x4096.size a
  hwx0_3 : ∀ i : grid0.Coords, EltTy.bits .bf16 = 32 ∨ (Rect.block (s := S8x1024x4096) S1x1024x512.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x512.size a ≤ S8x1024x4096.size a
  hwx1_0 : ∀ i : grid1.Coords, EltTy.bits .bf16 = 32 ∨ (Rect.block (s := S8x1024x4096) S1x1024x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x2048.size a ≤ S8x4096x2048.size a
  hwx1_1 : ∀ i : grid1.Coords, EltTy.bits .f32 = 32 ∨ (Rect.block (s := S8x4096x2048) S1x512x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x2048.size a ≤ S8x1024x2048.size a
  hwx1_2 : ∀ i : grid1.Coords, EltTy.bits .f32 = 32 ∨ (Rect.block (s := S8x1024x2048) S1x1024x2048.size (cc1_transform_2 i) (hinb1_2 i)).WholeWords (EltTy.packing .f32)

variable [Facts₀]

def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf
def dot_S1024x512_S512x2048_S1024x2048_1_0_0_1_n_n : DotDims S1024x512 S512x2048 S1024x2048 where
  lhsContracting := [1]
  rhsContracting := [0]
  lhsNonContracting := [0]
  rhsNonContracting := [1]
  lhsBatch := []
  rhsBatch := []
  wf := dot_S1024x512_S512x2048_S1024x2048_1_0_0_1_n_n_wf

abbrev win0_0 : Pipeline.Window sig grid0 :=
  Pipeline.Window.ofSpec (Memref.whole main_v0) S1x1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x2048x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S1x1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S1x512x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1024x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8192x2048 : Shape := ⟨2, ![8192, 2048]⟩
abbrev S8x2048x8192 : Shape := ⟨3, ![8, 2048, 8192]⟩
abbrev S8x4096x2048 : Shape := ⟨3, ![8, 4096, 2048]⟩
abbrev S8x1024x2048 : Shape := ⟨3, ![8, 1024, 2048]⟩
abbrev S8x1024x8192 : Shape := ⟨3, ![8, 1024, 8192]⟩
abbrev S8x1024x4096 : Shape := ⟨3, ![8, 1024, 4096]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8x2048x8192, .f32⟩
  | .hbm, ⟨2, _⟩ => ⟨S8x4096x2048, .f32⟩
  | .hbm, ⟨3, _⟩ => ⟨S8x1024x2048, .f32⟩
  | .hbm, ⟨4, _⟩ => ⟨S8x1024x8192, .f32⟩
  | .hbm, ⟨5, _⟩ => ⟨S8x1024x4096, .f32⟩
  | .hbm, ⟨6, _⟩ => ⟨S8x1024x4096, .f32⟩
  | .hbm, ⟨7, _⟩ => ⟨S8x1024x4096, .f32⟩
  | .hbm, ⟨8, _⟩ => ⟨S8x1024x4096, .f32⟩
  | .hbm, ⟨9, _⟩ => ⟨S_, .f32⟩
  | .hbm, ⟨10, _⟩ => ⟨S8x1024x4096, .f32⟩
  | .hbm, ⟨11, _⟩ => ⟨S8x1024x4096, .f32⟩
  | .hbm, ⟨12, _⟩ => ⟨S_, .f32⟩
  | .hbm, ⟨13, _⟩ => ⟨S8x1024x4096, .f32⟩
  | .hbm, ⟨14, _⟩ => ⟨S8x1024x4096, .f32⟩
  | .hbm, ⟨15, _⟩ => ⟨S8x1024x4096, .f32⟩
  | .hbm, ⟨16, _⟩ => ⟨S8x1024x4096, .f32⟩
  | .hbm, ⟨17, _⟩ => ⟨S8x1024x2048, .f32⟩
  | .hbm, ⟨18, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]

class Facts₀ : Prop where
  shapeCasts_S8192x2048_S8x1024x2048 : S8192x2048.ShapeCasts S8x1024x2048
  slices_S8x1024x8192_S8x1024x4096_0_0_0 : S8x1024x8192.Slices ![0, 0, 0] S8x1024x4096
  slices_S8x1024x8192_S8x1024x4096_0_0_4096 : S8x1024x8192.Slices ![0, 0, 4096] S8x1024x4096
  bcast_S_S8x1024x4096 : S_.BroadcastsInDim S8x1024x4096 (![] : Fin 0 → Fin S8x1024x4096.rank)
  shapeCasts_S8x1024x2048_S8192x2048 : S8x1024x2048.ShapeCasts S8192x2048
  dot_S8x1024x2048_S8x2048x8192_S8x1024x8192_2_1_1_2_0_0_wf : DotDims.WF S8x1024x2048 S8x2048x8192 S8x1024x8192 [2] [1] [1] [2] [0] [0]
  dot_S8x1024x4096_S8x4096x2048_S8x1024x2048_2_1_1_2_0_0_wf : DotDims.WF S8x1024x4096 S8x4096x2048 S8x1024x2048 [2] [1] [1] [2] [0] [0]

variable [Facts₀]

def dot_S8x1024x2048_S8x2048x8192_S8x1024x8192_2_1_1_2_0_0 : DotDims S8x1024x2048 S8x2048x8192 S8x1024x8192 where
  lhsContracting := [2]
  rhsContracting := [1]
  lhsNonContracting := [1]
  rhsNonContracting := [2]
  lhsBatch := [0]
  rhsBatch := [0]
  wf := dot_S8x1024x2048_S8x2048x8192_S8x1024x8192_2_1_1_2_0_0_wf
def dot_S8x1024x4096_S8x4096x2048_S8x1024x2048_2_1_1_2_0_0 : DotDims S8x1024x4096 S8x4096x2048 S8x1024x2048 where
  lhsContracting := [2]
  rhsContracting := [1]
  lhsNonContracting := [1]
  rhsNonContracting := [2]
  lhsBatch := [0]
  rhsBatch := [0]
  wf := dot_S8x1024x4096_S8x4096x2048_S8x1024x2048_2_1_1_2_0_0_wf

class Facts : Prop extends Facts₀ where

variable [Facts]
-- ==== Proof.Bits.GateUp.lean ====
/-
  The gate/up projection (the first kernel region): at grid point (e, n) the body multiplies expert e's
  1024 × 2048 token block by the n-th 2048 × 512 column tile of the gate half and of the up half of that
  expert's projection matrix, and stores up · (gate · logistic gate) as the (e, n) tile of the gated
  activations. Both weight tiles are windows on ONE array, so the core holds that array at two half shares.
  Stated at any float instance: the same text serves the word-level program and the idealized one.
-/
import proofs.«146660_j9483287789704_1_alg».proof.Proof.Gen.Kernel.Launch
import proofs.«146660_j9483287789704_1_alg».proof.Proof.Gen.Kernel.Skeleton
import proofs.«146660_j9483287789704_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.GateUp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffer contents the region is entered from, per core
variable (V : (c : Dev nD) → (b : Ref sig .tc) → Buf (Elt F) ((c : Thread nD τ).loc b))

/-- Window `w`'s block of its array at grid point `t`, as the region finds the array. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The gated tile from a token block and the two weight tiles: up · (gate · logistic gate), with gate and up
    the two matrix products (the body's one stored value). -/
def gatedTile (x : Vec F S1x1024x2048 .f32) (g u : Vec F S1x2048x512 .f32) : Vec F S1x1024x512 .bf16 :=
  k0_pay1 x g u

/-- Every access of the body starts at the origin of its three-axis buffer. -/
theorem origin3 : (![0, 0, 0] : Fin 3 → ℕ) = fun _ => 0 :=
  funext fun a => by match a with | 0 => rfl | 1 => rfl | 2 => rfl

/-- The rectangle the body stores its one value through: the whole output buffer. -/
abbrev outRect : Rect S1x1024x512 :=
  Rect.unit (s := S1x1024x512) ![0, 0, 0] S1x1024x512.size inb_S1x1024x512_S1x1024x512_0_0_0

/-- The one store covers the output buffer, whatever it stores. -/
theorem outRect_covers (p : Vec F S1x1024x512 .bf16) (y : S1x1024x512.Idx) :
    ∃ pc ∈ ([⟨outRect, p⟩] : List (View.Piece (Elt F) S1x1024x512 .bf16)), y ∈ pc.1.set :=
  ⟨_, List.mem_singleton_self _, View.mem_set_unit_zero (S := S1x1024x512) origin3 inb_S1x1024x512_S1x1024x512_0_0_0 y⟩

/-- The body on whole staging memrefs: the three inputs at known contents and the output at anything run to
    the inputs unchanged and the output at the gated tile. -/
theorem sound_kernel (c : Dev nD) (E : Set ℕ) (i : grid0.Coords)
    (arg2 : Memref sig .tc .vmem S1x1024x2048 .f32) (harg2 : arg2.IsWhole)
    (arg3 : Memref sig .tc .vmem S1x2048x512 .f32) (harg3 : arg3.IsWhole)
    (arg4 : Memref sig .tc .vmem S1x2048x512 .f32) (harg4 : arg4.IsWhole)
    (arg5 : Memref sig .tc .vmem S1x1024x512 .bf16) (harg5 : arg5.IsWhole)
    (x : Vec F S1x1024x2048 .f32) (g u : Vec F S1x2048x512 .f32) (K : PUnit → sProp 𝕄) :
    iprop(owns (c : Thread nD τ) arg2 fullShare x ∗ owns (c : Thread nD τ) arg3 fullShare g ∗ owns (c : Thread nD τ) arg4 fullShare u
        ∗ (∃ d, owns (c : Thread nD τ) arg5 fullShare d)
        ∗ (iprop(owns (c : Thread nD τ) arg2 fullShare x ∗ owns (c : Thread nD τ) arg3 fullShare g ∗ owns (c : Thread nD τ) arg4 fullShare u
            ∗ owns (c : Thread nD τ) arg5 fullShare (gatedTile x g u)) -∗ K ⟨⟩))
      ⊢ wp frame (wpE (defs₀ (F := F)) Variants.none c none) E (cc0__gateup_kernel i arg2 harg2 arg3 harg3 arg4 harg4 arg5 harg5) K := by
  simp only [cc0__gateup_kernel_eq_skeleton]; unfold cc0__gateup_kernel_skel
  unfold owns
  iintro ⟨⟨%f2, %hf2, H2⟩, ⟨%f3, %hf3, H3⟩, ⟨%f4, %hf4, H4⟩, ⟨%d5, %f5, -, H5⟩, Hk⟩
  subst hf2 hf3 hf4
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  -- the one store covers the output buffer, so the buffer reads back as the stored value; each load is of a
  -- whole buffer, so it reads the buffer's contents
  refine (View.read_writes_eq_canon _ _ _ (outRect_covers _)).trans ?_
  rw [View.canon_unit_zero (S := S1x1024x512) origin3]
  simp only [View.readAt_eq_ld, View.ld_unit_zero (S := S1x1024x2048) origin3, View.ld_unit_zero (S := S1x2048x512) origin3]
  rfl

/-- The region's proof data on core `c`: the arrays as found; after the body each input's buffer at its block and
    the output's at the gated tile of the three input blocks; the invariant the scoped rest and the generator
    register, untouched; nothing owed; the shared weight array at its left half for the gate window and its right
    half for the up window. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => gatedTile (blk V c 0 t) (blk V c 1 t) (blk V c 2 t)
  Φ _ := Pipeline.ΦA spec0 c
  q w := match w with
    | ⟨0, _⟩ => fullShare
    | ⟨1, _⟩ => fullShare.left
    | ⟨2, _⟩ => fullShare.right
    | ⟨3, _⟩ => fullShare
  owed _ := 0

theorem A_eq (c : Dev nD) (w : Fin cfg0.W) : (dat V c).A w = V c (Pipeline.arrRef spec0 w) := by
  dsimp only [dat]
theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) :
    (dat V c).after 3 t = gatedTile (blk V c 0 t) (blk V c 1 t) (blk V c 2 t) := by dsimp only [dat]

/-- Each input window's current buffer holds the window's block at every point, fetched there or not: where it is
    not fetched its block index has not moved, and the body left the block in place. -/
theorem before_0 (c : Dev nD) (t : Fin cfg0.N) (d) : (dat V c).before 0 t d = blk V c 0 t :=
  ((dat V c).before_in_eq_fetched 0 rfl (fun _ => rfl) (fun _ _ _ => rfl)
      (fun t => by rw [after_0]; unfold Dat.blockOf blk; rw [A_eq]; try rfl) t d).trans
    (by unfold Dat.fetched Dat.blockOf blk; rw [A_eq]; try rfl)
theorem before_1 (c : Dev nD) (t : Fin cfg0.N) (d) : (dat V c).before 1 t d = blk V c 1 t :=
  ((dat V c).before_in_eq_fetched 1 rfl (fun _ => rfl) (fun _ _ _ => rfl)
      (fun t => by rw [after_1]; unfold Dat.blockOf blk; rw [A_eq]; try rfl) t d).trans
    (by unfold Dat.fetched Dat.blockOf blk; rw [A_eq]; try rfl)
theorem before_2 (c : Dev nD) (t : Fin cfg0.N) (d) : (dat V c).before 2 t d = blk V c 2 t :=
  ((dat V c).before_in_eq_fetched 2 rfl (fun _ => rfl) (fun _ _ _ => rfl)
      (fun t => by rw [after_2]; unfold Dat.blockOf blk; rw [A_eq]; try rfl) t d).trans
    (by unfold Dat.fetched Dat.blockOf blk; rw [A_eq]; try rfl)

/-- The body at grid point `t`, on the four windows' current buffers: the inputs hold their blocks, so the body's
    triple applies at those blocks; the invariant and what the core owes pass through unread. -/
theorem body_at (c : Dev nD) (t : Fin cfg0.N) :
    iprop((dat V c).Φ t.castSucc ∗ (dat V c).owesAt () t.castSucc
        ∗ (∃ d, owns (c : Thread nD τ) (st0_0 t) fullShare ((dat V c).before 0 t d))
        ∗ (∃ d, owns (c : Thread nD τ) (st0_1 t) fullShare ((dat V c).before 1 t d))
        ∗ (∃ d, owns (c : Thread nD τ) (st0_2 t) fullShare ((dat V c).before 2 t d))
        ∗ (∃ d, owns (c : Thread nD τ) (st0_3 t) fullShare ((dat V c).before 3 t d)))
      ⊢ wp frame (wpE (defs₀ (F := F)) Variants.none c none) Set.univ (bodyAt0 t) (fun _ =>
          iprop((dat V c).Φ t.succ ∗ (dat V c).owesAt () t.succ
            ∗ owns (c : Thread nD τ) (st0_0 t) fullShare ((dat V c).after 0 t)
            ∗ owns (c : Thread nD τ) (st0_1 t) fullShare ((dat V c).after 1 t)
            ∗ owns (c : Thread nD τ) (st0_2 t) fullShare ((dat V c).after 2 t)
            ∗ owns (c : Thread nD τ) (st0_3 t) fullShare ((dat V c).after 3 t))) := by
  unfold bodyAt0
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every grid point. -/
theorem body_obligation (c : Dev nD) : BodyObligation (dat (F := F) V c) (defs₀ (F := F)) Variants.none () Set.univ := fun t => by
  rw [bigSep_W0, bigSep_W0]
  exact body_at V c t

end Cert.Kernel.GateUp

end
-- ==== Proof.Bits.Down.lean ====
/-
  The down projection (the second kernel region): for expert e the grid walks the eight 512-wide tiles of the
  4096-long contraction. A scratch accumulator carried between grid points is zeroed at the first tile, gains
  (gated tile) · (weight tile) at every tile, and is copied to the expert's 1024 × 2048 output block at the last
  tile; at the other seven tiles the output's staging buffer is left as found.
  Stated at any float instance: the same text serves the word-level program and the idealized one.
-/
import proofs.«146660_j9483287789704_1_alg».proof.Proof.Gen.Kernel.Launch
import proofs.«146660_j9483287789704_1_alg».proof.Proof.Gen.Kernel.Skeleton
import proofs.«146660_j9483287789704_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Down

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffer contents the region is entered from, per core
variable (V : (c : Dev nD) → (b : Ref sig .tc) → Buf (Elt F) ((c : Thread nD τ).loc b))

/-- Window `w`'s block of its array at grid point `t`, as the region finds the array. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The zeroed accumulator. -/
def zeroAcc : Vec F S1024x2048 .f32 := k1_pay1

/-- One tile's step: the accumulator plus (gated tile) · (weight tile). -/
def stepAcc (g : Vec F S1x1024x512 .bf16) (d : Vec F S1x512x2048 .f32) (a : Vec F S1024x2048 .f32) : Vec F S1024x2048 .f32 :=
  k1_pay2 g d a

/-- The output block written from the accumulator. -/
def outBlock (a : Vec F S1024x2048 .f32) : Vec F S1x1024x2048 .f32 := k1_pay3 a

/-- The scratch accumulator after the points below `n`: a point at the first tile of its expert (n ≡ 0 mod 8)
    starts from zero, every other from what the point before left. -/
def acc (c : Dev nD) : ℕ → Vec F S1024x2048 .f32
  | 0 => zeroAcc
  | n + 1 =>
    if h : n < cfg1.N then
      stepAcc (blk V c 0 ⟨n, h⟩) (blk V c 1 ⟨n, h⟩) (if n % 8 = 0 then zeroAcc else acc c n)
    else zeroAcc

theorem acc_succ (c : Dev nD) (t : Fin cfg1.N) :
    acc V c (t.val + 1) = stepAcc (blk V c 0 t) (blk V c 1 t) (if t.val % 8 = 0 then zeroAcc else acc V c t.val) := by
  rw [acc, dif_pos t.isLt]

/-- The scratch before point `t`: at some contents, which away from an expert's first tile are the accumulator. -/
def scratchAt (c : Dev nD) (t : Fin (cfg1.N + 1)) : sProp 𝕄 :=
  iprop(∃ a : Vec F S1024x2048 .f32, owns (c : Thread nD τ) (Memref.whole cc1_scratch0) fullShare a ∗ ⌜t.val % 8 ≠ 0 → a = acc V c t.val⌝)

/-- The core's scoped buffers that are neither a staging buffer of this region nor its scratch: the first
    region's eight staging buffers, each whole at some contents. -/
def otherScoped (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- The region's invariant before point `t`: the scratch, the other scoped buffers, the generator register. -/
def inv (c : Dev nD) (t : Fin (cfg1.N + 1)) : sProp 𝕄 :=
  iprop(scratchAt V c t ∗ otherScoped (F := F) c ∗ ∃ r, prngReg c r)

/-- The region's proof data on core `c`: the arrays as found; after the body each input's buffer at its block and
    the output's at the block written from the accumulator (read only where the block is written back: the last
    tile of each expert); the invariant above; nothing owed; full shares. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => outBlock (acc V c (t.val + 1))
  Φ t := inv V c t
  q _ := fullShare
  owed _ := 0

theorem A_eq (c : Dev nD) (w : Fin cfg1.W) : (dat V c).A w = V c (Pipeline.arrRef spec1 w) := by
  dsimp only [dat]
theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = outBlock (acc V c (t.val + 1)) := by dsimp only [dat]
theorem Φ_eq (c : Dev nD) (t : Fin (cfg1.N + 1)) : (dat V c).Φ t = inv V c t := by dsimp only [dat]

/-! ## The two conditionals, decided over the grid -/

/-- The first conditional's test as the body computes it from the grid coordinates: the contraction tile is the first. -/
abbrev isFirst (i : grid1.Coords) : Prop :=
  Scalar.cmpi .ne (Scalar.extui (Scalar.cmpi .eq (BitVec.ofNat 32 (i 1).val) 0#32)) 0#32 = 1#1

/-- The second conditional's test: the contraction tile is the last. -/
abbrev isLast (i : grid1.Coords) : Prop := k1_cond2 i = 1#1

/-- Over the 8 × 8 grid, row-major, the tile is the first exactly at the points ≡ 0 (mod 8), -/
theorem isFirst_iff : ∀ t : Fin cfg1.N, isFirst (grid1.coords t) ↔ t.val % 8 = 0 :=
  (by decide +kernel : ∀ t : Fin grid1.N, isFirst (grid1.coords t) ↔ t.val % 8 = 0)

/-- and the last exactly at the points ≡ 7 (mod 8). -/
theorem isLast_iff : ∀ t : Fin cfg1.N, isLast (grid1.coords t) ↔ t.val % 8 = 7 :=
  (by decide +kernel : ∀ t : Fin grid1.N, isLast (grid1.coords t) ↔ t.val % 8 = 7)

/-- The whole-buffer rectangles start at the origin. -/
theorem off2 : (![0, 0] : Fin 2 → ℕ) = fun _ => 0 := funext fun a => by fin_cases a <;> rfl
theorem off3 : (![0, 0, 0] : Fin 3 → ℕ) = fun _ => 0 := funext fun a => by fin_cases a <;> rfl

/-! ## The body's three control cases on whole memrefs -/

/-- A store through the whole-buffer rectangle, last, covers every index: of the accumulator, -/
theorem cover2 (w : Vec F S1024x2048 .f32) (L : List (View.Piece (Elt F) S1024x2048 .f32)) (y : S1024x2048.Idx) :
    ∃ p ∈ ((⟨Rect.unit ![0, 0] S1024x2048.size inb_S1024x2048_S1024x2048_0_0, w⟩ : View.Piece (Elt F) S1024x2048 .f32) :: L), y ∈ p.1.set :=
  ⟨_, List.mem_cons_self, View.mem_set_unit_zero (S := S1024x2048) off2 inb_S1024x2048_S1024x2048_0_0 y⟩

/-- and of the output block. -/
theorem cover3 (w : Vec F S1x1024x2048 .f32) (L : List (View.Piece (Elt F) S1x1024x2048 .f32)) (y : S1x1024x2048.Idx) :
    ∃ p ∈ ((⟨Rect.unit ![0, 0, 0] S1x1024x2048.size inb_S1x1024x2048_S1x1024x2048_0_0_0, w⟩ : View.Piece (Elt F) S1x1024x2048 .f32) :: L), y ∈ p.1.set :=
  ⟨_, List.mem_cons_self, View.mem_set_unit_zero (S := S1x1024x2048) off3 inb_S1x1024x2048_S1x1024x2048_0_0_0 y⟩

/-- The body at a tile that is neither an expert's first nor its last, on whole memrefs: the inputs at `g` and
    `d`, the output's buffer at `o`, the scratch at `a`. Neither conditional is taken; the one store covers the
    scratch, which therefore reads as its payload, `a` plus (gated tile) · (weight tile); everything else is left
    as found. -/
theorem run_mid (c : Dev nD) (E : Set ℕ) (i : grid1.Coords)
    (arg2 : Memref sig .tc .vmem S1x1024x512 .bf16) (harg2 : arg2.IsWhole)
    (arg3 : Memref sig .tc .vmem S1x512x2048 .f32) (harg3 : arg3.IsWhole)
    (arg4 : Memref sig .tc .vmem S1x1024x2048 .f32) (harg4 : arg4.IsWhole)
    (arg5 : Memref sig .tc .vmem S1024x2048 .f32) (harg5 : arg5.IsWhole)
    (hc1 : ¬isFirst i) (hc2 : ¬isLast i)
    (g : Vec F S1x1024x512 .bf16) (d : Vec F S1x512x2048 .f32) (o : Vec F S1x1024x2048 .f32) (a : Vec F S1024x2048 .f32)
    (K : PUnit → sProp 𝕄) :
    iprop(owns (c : Thread nD τ) arg2 fullShare g ∗ owns (c : Thread nD τ) arg3 fullShare d
        ∗ owns (c : Thread nD τ) arg4 fullShare o ∗ owns (c : Thread nD τ) arg5 fullShare a
        ∗ (iprop(owns (c : Thread nD τ) arg2 fullShare g ∗ owns (c : Thread nD τ) arg3 fullShare d
            ∗ owns (c : Thread nD τ) arg4 fullShare o ∗ owns (c : Thread nD τ) arg5 fullShare (stepAcc g d a)) -∗ K ⟨⟩))
      ⊢ wp frame (wpE (defs₀ (F := F)) Variants.none c none) E (cc1__down_kernel i arg2 harg2 arg3 harg3 arg4 harg4 arg5 harg5) K := by
  simp only [cc1__down_kernel_eq_skeleton]; unfold cc1__down_kernel_skel
  unfold owns
  iintro ⟨⟨%f2, %hf2, H2⟩, ⟨%f3, %hf3, H3⟩, ⟨%f4, %hf4, H4⟩, ⟨%f5, %hf5, H5⟩, Hk⟩
  subst hf2 hf3 hf4 hf5
  sl_exec (disch := first | sl_exact hc1 | sl_exact hc2)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover2 _ _), View.canon_unit_zero (S := S1024x2048) off2]
  simp only [View.readAt_eq_ld, View.ld_unit_zero (S := S1024x2048) off2, View.ld_unit_zero (S := S1x1024x512) off3, View.ld_unit_zero (S := S1x512x2048) off3]
  rfl

/-- The body at an expert's first tile: the scratch is overwritten with zeros, read back, and overwritten with the
    zeros plus the tile's product. The later store covers the earlier one, and the load between them reads the
    zeros, so the scratch ends at one step from zero whatever it held; the output's buffer is left as found. -/
theorem run_first (c : Dev nD) (E : Set ℕ) (i : grid1.Coords)
    (arg2 : Memref sig .tc .vmem S1x1024x512 .bf16) (harg2 : arg2.IsWhole)
    (arg3 : Memref sig .tc .vmem S1x512x2048 .f32) (harg3 : arg3.IsWhole)
    (arg4 : Memref sig .tc .vmem S1x1024x2048 .f32) (harg4 : arg4.IsWhole)
    (arg5 : Memref sig .tc .vmem S1024x2048 .f32) (harg5 : arg5.IsWhole)
    (hc1 : isFirst i) (hc2 : ¬isLast i)
    (g : Vec F S1x1024x512 .bf16) (d : Vec F S1x512x2048 .f32) (o : Vec F S1x1024x2048 .f32) (a : Vec F S1024x2048 .f32)
    (K : PUnit → sProp 𝕄) :
    iprop(owns (c : Thread nD τ) arg2 fullShare g ∗ owns (c : Thread nD τ) arg3 fullShare d
        ∗ owns (c : Thread nD τ) arg4 fullShare o ∗ owns (c : Thread nD τ) arg5 fullShare a
        ∗ (iprop(owns (c : Thread nD τ) arg2 fullShare g ∗ owns (c : Thread nD τ) arg3 fullShare d
            ∗ owns (c : Thread nD τ) arg4 fullShare o ∗ owns (c : Thread nD τ) arg5 fullShare (stepAcc g d zeroAcc)) -∗ K ⟨⟩))
      ⊢ wp frame (wpE (defs₀ (F := F)) Variants.none c none) E (cc1__down_kernel i arg2 harg2 arg3 harg3 arg4 harg4 arg5 harg5) K := by
  simp only [cc1__down_kernel_eq_skeleton]; unfold cc1__down_kernel_skel
  unfold owns
  iintro ⟨⟨%f2, %hf2, H2⟩, ⟨%f3, %hf3, H3⟩, ⟨%f4, %hf4, H4⟩, ⟨%f5, %hf5, H5⟩, Hk⟩
  subst hf2 hf3 hf4 hf5
  sl_exec (disch := first | sl_exact hc1 | sl_exact hc2)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  sl_unfold_words
  rw [View.read_writes_eq_canon _ _ _ (cover2 _ _), View.canon_cons_unit_zero (S := S1024x2048) off2,
    View.readCov_unit_zero (S := S1024x2048) _ off2]
  simp only [View.readAt_eq_ld, View.ld_unit_zero (S := S1024x2048) off2, View.ld_unit_zero (S := S1x1024x512) off3, View.ld_unit_zero (S := S1x512x2048) off3]
  rfl

/-- The body at an expert's last tile: the scratch gains the tile's product as at any later tile, is read back,
    and what was read is stored, with a unit axis put in front, over the whole of the output's buffer. -/
theorem run_last (c : Dev nD) (E : Set ℕ) (i : grid1.Coords)
    (arg2 : Memref sig .tc .vmem S1x1024x512 .bf16) (harg2 : arg2.IsWhole)
    (arg3 : Memref sig .tc .vmem S1x512x2048 .f32) (harg3 : arg3.IsWhole)
    (arg4 : Memref sig .tc .vmem S1x1024x2048 .f32) (harg4 : arg4.IsWhole)
    (arg5 : Memref sig .tc .vmem S1024x2048 .f32) (harg5 : arg5.IsWhole)
    (hc1 : ¬isFirst i) (hc2 : isLast i)
    (g : Vec F S1x1024x512 .bf16) (d : Vec F S1x512x2048 .f32) (o : Vec F S1x1024x2048 .f32) (a : Vec F S1024x2048 .f32)
    (K : PUnit → sProp 𝕄) :
    iprop(owns (c : Thread nD τ) arg2 fullShare g ∗ owns (c : Thread nD τ) arg3 fullShare d
        ∗ owns (c : Thread nD τ) arg4 fullShare o ∗ owns (c : Thread nD τ) arg5 fullShare a
        ∗ (iprop(owns (c : Thread nD τ) arg2 fullShare g ∗ owns (c : Thread nD τ) arg3 fullShare d
            ∗ owns (c : Thread nD τ) arg4 fullShare (outBlock (stepAcc g d a)) ∗ owns (c : Thread nD τ) arg5 fullShare (stepAcc g d a)) -∗ K ⟨⟩))
      ⊢ wp frame (wpE (defs₀ (F := F)) Variants.none c none) E (cc1__down_kernel i arg2 harg2 arg3 harg3 arg4 harg4 arg5 harg5) K := by
  simp only [cc1__down_kernel_eq_skeleton]; unfold cc1__down_kernel_skel
  unfold owns
  iintro ⟨⟨%f2, %hf2, H2⟩, ⟨%f3, %hf3, H3⟩, ⟨%f4, %hf4, H4⟩, ⟨%f5, %hf5, H5⟩, Hk⟩
  subst hf2 hf3 hf4 hf5
  sl_exec (disch := first | sl_exact hc1 | sl_exact hc2)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_words
    rw [View.read_writes_eq_canon _ _ _ (cover3 _ _), View.canon_unit_zero (S := S1x1024x2048) off3,
      View.readCov_unit_zero (S := S1024x2048) _ off2]
    simp only [View.readAt_eq_ld, View.ld_unit_zero (S := S1024x2048) off2, View.ld_unit_zero (S := S1x1024x512) off3, View.ld_unit_zero (S := S1x512x2048) off3]
    rfl
  iexists _; isplitr
  swap; · iexact H5
  ipureintro
  sl_unfold_words
  rw [View.read_writes_eq_canon _ _ _ (cover2 _ _), View.canon_unit_zero (S := S1024x2048) off2]
  simp only [View.readAt_eq_ld, View.ld_unit_zero (S := S1024x2048) off2, View.ld_unit_zero (S := S1x1024x512) off3, View.ld_unit_zero (S := S1x512x2048) off3]
  rfl

/-! ## What the body finds in, and leaves in, each window's buffer -/

/-- Each input's current staging buffer holds its block of the array: both inputs are fetched at every point. -/
theorem before_0 (c : Dev nD) (t : Fin cfg1.N) (d) : (dat V c).before 0 t d = blk V c 0 t :=
  ((dat V c).before_fetched 0 t (fetch1_0 t) d).trans (by unfold Dat.fetched Dat.blockOf blk; rw [A_eq]; rfl)
theorem before_1 (c : Dev nD) (t : Fin cfg1.N) (d) : (dat V c).before 1 t d = blk V c 1 t :=
  ((dat V c).before_fetched 1 t (fetch1_1 t) d).trans (by unfold Dat.fetched Dat.blockOf blk; rw [A_eq]; rfl)

/-- The inputs are never idle: after the body each holds its block still. -/
theorem leaves_0 (c : Dev nD) (t : Fin cfg1.N) :
    (dat V c).leavesExact 0 t = owns (c : Thread nD τ) (st1_0 t) fullShare (blk V c 0 t) := by
  unfold Dat.leavesExact; rw [show cfg1.idle 0 (cfg1.grid.coords t) = false from rfl, after_0]
theorem leaves_1 (c : Dev nD) (t : Fin cfg1.N) :
    (dat V c).leavesExact 1 t = owns (c : Thread nD τ) (st1_1 t) fullShare (blk V c 1 t) := by
  unfold Dat.leavesExact; rw [show cfg1.idle 1 (cfg1.grid.coords t) = false from rfl, after_1]

/-- Away from an expert's last tile the output window is idle and not written back: its buffer is handed back as found. -/
theorem leaves_2_idle (c : Dev nD) (t : Fin cfg1.N) (h7 : ¬t.val % 8 = 7) :
    (dat V c).leavesExact 2 t = iprop(∃ d, owns (c : Thread nD τ) (st1_2 t) fullShare ((dat V c).before 2 t d)) := by
  refine Dat.leavesExact_idle (dat V c) 2 t ?_ (Bool.eq_false_iff.mpr fun h => h7 ((flush1_2 t).mp h))
  have hl : ¬k1_cond2 (grid1.coords t) = 1#1 := fun h => h7 ((isLast_iff t).mp h)
  show (!(k1_cond2 (grid1.coords t) == 1#1)) = true
  rw [Bool.not_eq_true', beq_eq_false_iff_ne]; exact hl

/-- At an expert's last tile it is live: its buffer holds the block written from the accumulator. -/
theorem leaves_2_last (c : Dev nD) (t : Fin cfg1.N) (h7 : t.val % 8 = 7) :
    (dat V c).leavesExact 2 t = owns (c : Thread nD τ) (st1_2 t) fullShare (outBlock (acc V c (t.val + 1))) := by
  have hl : k1_cond2 (grid1.coords t) = 1#1 := (isLast_iff t).mpr h7
  unfold Dat.leavesExact
  rw [show cfg1.idle 2 (cfg1.grid.coords t) = false from by
    show (!(k1_cond2 (grid1.coords t) == 1#1)) = false
    rw [hl]; rfl, after_2]

/-- What the body is called with at point `t`: the invariant, what the core owes, each window's current buffer. -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- What it returns. -/
def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t)

/-- The body at any point. The inputs' buffers hold their blocks; the point's residue mod 8 says which of the three
    control cases it is in. At an expert's first tile the scratch is taken at whatever it holds and given back at one
    step from zero; at every other tile the invariant says it holds the accumulator, and it is given back one step on;
    either way that is the accumulator after the point (`acc_succ`). The output's buffer is given back as found
    except at the last tile, where it holds the block written from the accumulator. The other scoped buffers, the
    generator register and what the core owes pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).owesAt () t.succ = (dat V c).owesAt () t.castSucc from rfl, Φ_eq, Φ_eq, leaves_0, leaves_1]
  unfold inv scratchAt
  simp only [Fin.coe_castSucc, Fin.val_succ]
  rw [acc_succ]
  by_cases h0 : t.val % 8 = 0
  · -- an expert's first tile: the accumulator restarts from zero, whatever the scratch held
    have h7 : ¬t.val % 8 = 7 := by omega
    rw [leaves_2_idle V c t h7, if_pos h0]
    iintro ⟨⟨⟨%a, HS, -⟩, HO, Hg⟩, Ho, ⟨%d0, H0⟩, ⟨%d1, H1⟩, ⟨%d2, H2⟩⟩
    iapply (run_first c Set.univ (grid1.coords t) _ _ _ _ _ _ (Memref.whole cc1_scratch0) (Memref.isWhole_whole _)
      ((isFirst_iff t).mpr h0) (fun h => h7 ((isLast_iff t).mp h)) (blk V c 0 t) (blk V c 1 t) ((dat V c).before 2 t d2) a _)
    isplitl [H0]; · iexact H0
    isplitl [H1]; · iexact H1
    isplitl [H2]; · iexact H2
    isplitl [HS]; · iexact HS
    iintro ⟨H0, H1, H2, HS⟩
    isplitl [HS HO Hg]
    · isplitl [HS]
      · iexists _; isplitl [HS]; · iexact HS
        ipureintro; intro _; rfl
      isplitl [HO]; · iexact HO
      iexact Hg
    isplitl [Ho]; · iexact Ho
    isplitl [H0]; · iexact H0
    isplitl [H1]; · iexact H1
    iexists d2; iexact H2
  · rw [if_neg h0]
    by_cases h7 : t.val % 8 = 7
    · -- an expert's last tile: the scratch holds the accumulator, which gains this tile and is copied out
      rw [leaves_2_last V c t h7, acc_succ, if_neg h0]
      iintro ⟨⟨⟨%a, HS, %ha⟩, HO, Hg⟩, Ho, ⟨%d0, H0⟩, ⟨%d1, H1⟩, ⟨%d2, H2⟩⟩
      obtain rfl : a = acc V c t.val := ha h0
      iapply (run_last c Set.univ (grid1.coords t) _ _ _ _ _ _ (Memref.whole cc1_scratch0) (Memref.isWhole_whole _)
        (fun h => h0 ((isFirst_iff t).mp h)) ((isLast_iff t).mpr h7) (blk V c 0 t) (blk V c 1 t) ((dat V c).before 2 t d2) (acc V c t.val) _)
      isplitl [H0]; · iexact H0
      isplitl [H1]; · iexact H1
      isplitl [H2]; · iexact H2
      isplitl [HS]; · iexact HS
      iintro ⟨H0, H1, H2, HS⟩
      isplitl [HS HO Hg]
      · isplitl [HS]
        · iexists _; isplitl [HS]; · iexact HS
          ipureintro; intro _; rfl
        isplitl [HO]; · iexact HO
        iexact Hg
      isplitl [Ho]; · iexact Ho
      isplitl [H0]; · iexact H0
      isplitl [H1]; · iexact H1
      iexact H2
    · -- a tile in between: the scratch holds the accumulator, which gains this tile
      rw [leaves_2_idle V c t h7]
      iintro ⟨⟨⟨%a, HS, %ha⟩, HO, Hg⟩, Ho, ⟨%d0, H0⟩, ⟨%d1, H1⟩, ⟨%d2, H2⟩⟩
      obtain rfl : a = acc V c t.val := ha h0
      iapply (run_mid c Set.univ (grid1.coords t) _ _ _ _ _ _ (Memref.whole cc1_scratch0) (Memref.isWhole_whole _)
        (fun h => h0 ((isFirst_iff t).mp h)) (fun h => h7 ((isLast_iff t).mp h)) (blk V c 0 t) (blk V c 1 t) ((dat V c).before 2 t d2) (acc V c t.val) _)
      isplitl [H0]; · iexact H0
      isplitl [H1]; · iexact H1
      isplitl [H2]; · iexact H2
      isplitl [HS]; · iexact HS
      iintro ⟨H0, H1, H2, HS⟩
      isplitl [HS HO Hg]
      · isplitl [HS]
        · iexists _; isplitl [HS]; · iexact HS
          ipureintro; intro _; rfl
        isplitl [HO]; · iexact HO
        iexact Hg
      isplitl [Ho]; · iexact Ho
      isplitl [H0]; · iexact H0
      isplitl [H1]; · iexact H1
      iexists d2; iexact H2

/-- The body obligation at every grid point. -/
theorem body_obligation (c : Dev nD) : BodyObligation (dat (F := F) V c) (defs₀ (F := F)) Variants.none () Set.univ := fun t => by
  rw [bigSep_W1, bigSep_W1]
  exact sound_body V c t

end Cert.Kernel.Down

end
-- ==== Proof.Bits.Boundaries.lean ====
/-
  The contents of a core's unscoped buffers at each boundary of @main — the launch memory, after the tokens are
  reshaped per expert, after the gate/up projection, after the down projection, after the result is reshaped back —
  and both regions' proof data, each at its region's entry contents; with what rides beside the buffers through
  every item (the generator register at some state, nothing owed).
  Stated at any float instance: the same text serves the word-level program and the idealized one.
-/
import proofs.«146660_j9483287789704_1_alg».proof.Proof.Gen.Kernel.Launch
import proofs.«146660_j9483287789704_1_alg».proof.Proof.Gen.Kernel.Skeleton
import proofs.«146660_j9483287789704_1_alg».proof.Proof.Gen.Kernel.Points
import proofs.«146660_j9483287789704_1_alg».proof.Proof.Gen.Kernel.Regions
import proofs.«146660_j9483287789704_1_alg».proof.Proof.Bits.GateUp
import proofs.«146660_j9483287789704_1_alg».proof.Proof.Bits.Down
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.MainRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffers' contents between items -/

/-- Core `c`'s buffers at launch. -/
abbrev W0 : Dev nD → Valuation τ sig (Elt F) := fun c b => m (c, b)
/-- After the tokens are reshaped per expert (the gate/up projection's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the gate/up projection: the gated activations at what its write-backs leave, all else as entered. -/
def W2 (c : Dev nD) : Valuation τ sig (Elt F) :=
  Function.update (W1 m c) main_v1 ((GateUp.dat (V1 m) c).arrAt 3 cfg0.N)
abbrev V2 : (c : Dev nD) → (b : Ref sig .tc) → Buf (Elt F) ((c : Thread nD τ).loc b) := fun c b => W2 m c b
/-- After the down projection: the per-expert result at what its write-backs leave, all else as entered. -/
def W3 (c : Dev nD) : Valuation τ sig (Elt F) :=
  Function.update (W2 m c) main_v2 ((Down.dat (V2 m) c).arrAt 2 cfg1.N)
/-- After the result is reshaped back. -/
abbrev W4 : Dev nD → Valuation τ sig (Elt F) := fun c => StableHlo.after hostOps2 (W3 m c)

/-! ## The proof data family and what rides beside the buffers -/

/-- Both regions' proof data, each at its region's entry contents. -/
def pdats : (p : Fin 2) → (c : Dev nD) → Dat τ (Elt F) Unit ℕ (UR sig nD τ) ℕ (Pipeline.pin (pcfgs (F := F)) adm p) c
  | ⟨0, _⟩ => fun c => GateUp.dat (V1 m) c
  | ⟨1, _⟩ => fun c => Down.dat (V2 m) c

abbrev 𝒱₀ : Variants := Variants.none
/-- No core owes another anything: no level is assigned. -/
abbrev L : GSem nD τ sig → Finset Unit := fun _ => ∅
abbrev lv : GSem nD τ sig → Unit → ℕ := fun _ _ => 0
/-- Beside the buffers through every item: the generator register at some state, and nothing owed. -/
abbrev R (c : Dev nD) : sProp 𝕄 := iprop((∃ r, prngReg c r) ∗ ∃ W, owes (c : Thread nD τ) (0 : CellTallies nD τ sig Unit) W)

/-- The thread state between items: every unscoped buffer held at the given contents, and `R`. -/
abbrev heldAt (W : Dev nD → Valuation τ sig (Elt F)) (c : Dev nD) : sProp 𝕄 :=
  iprop(StableHlo.held (c : Thread nD τ) (Pipeline.ucRefs τ sig) (W c) ∗ R (F := F) c)

end Cert.Kernel.MainRun

end
-- ==== Proof.Bits.GateUpSeg.lean ====
/-
  The gate/up projection as an item of @main's run: entered with every unscoped buffer held at the contents after
  the first reshape, left with them at the same contents but for the gated activations, which hold what the
  region's write-backs leave. At entry the weight array, which two windows read, is dealt to them as two half
  shares; at exit the halves are joined again.
  Stated at any float instance: the same text serves the word-level program and the idealized one.
-/
import proofs.«146660_j9483287789704_1_alg».proof.Proof.Gen.Kernel.Launch
import proofs.«146660_j9483287789704_1_alg».proof.Proof.Gen.Kernel.Skeleton
import proofs.«146660_j9483287789704_1_alg».proof.Proof.Gen.Kernel.Points
import proofs.«146660_j9483287789704_1_alg».proof.Proof.Bits.Boundaries
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.MainRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

namespace GateUpBufs

/-! ## The region's windows on three buffers

Windows 1 and 2 (the gate tile and the up tile) read one array, the experts' projection weights; the launch holds
that buffer once, whole, and the region holds it as two half shares, one per window. -/

section Deal

variable (V : (c : Dev nD) → (b : Ref sig .tc) → Buf (Elt F) ((c : Thread nD τ).loc b))

theorem share_0 (c : Dev nD) : (GateUp.dat V c).share 0 = fullShare := rfl
theorem share_1 (c : Dev nD) : (GateUp.dat V c).share 1 = fullShare.left := rfl
theorem share_2 (c : Dev nD) : (GateUp.dat V c).share 2 = fullShare.right := rfl
theorem share_3 (c : Dev nD) : (GateUp.dat V c).share 3 = fullShare := rfl

/-- The four windows' arrays one by one: each a whole buffer, the tokens and the gated activations at the full
    share, the weights at the left half for the gate window and at the right half for the up window. -/
theorem arrays_chain (c : Dev nD) (A : (w : Fin cfg0.W) → Buf (Elt F) ((cfg0.win w).arr.view.loc (c : Thread nD τ))) :
    ((GateUp.dat V c).arrays A : sProp 𝕄)
      = iprop((((c : Thread nD τ).loc main_v0) ↦{fullShare} A 0) ∗ (((c : Thread nD τ).loc main_arg1) ↦{fullShare.left} A 1)
          ∗ (((c : Thread nD τ).loc main_arg1) ↦{fullShare.right} A 2) ∗ (((c : Thread nD τ).loc main_v1) ↦{fullShare} A 3)) := by
  unfold Dat.arrays
  rw [bigSep_W0, share_0, share_1, share_2, share_3, (arr_whole0 0).set_eq_univ, (arr_whole0 1).set_eq_univ,
    (arr_whole0 3).set_eq_univ]

/-- The distinct buffers behind the four windows are three: tokens, weights, gated activations. -/
theorem arrBufs_chain (c : Dev nD) (B : (b : Ref sig .tc) → Buf (Elt F) ((c : Thread nD τ).loc b)) :
    (Pipeline.arrBufs (Ix := Unit) (Name := ℕ) (U := UR sig nD τ) (Lvl := ℕ) spec0 c B : sProp 𝕄)
      = iprop((((c : Thread nD τ).loc main_v0) ↦{fullShare} B main_v0) ∗ (((c : Thread nD τ).loc main_arg1) ↦{fullShare} B main_arg1)
          ∗ (((c : Thread nD τ).loc main_v1) ↦{fullShare} B main_v1)) := by
  unfold Pipeline.arrBufs
  rw [show (Finset.univ : Finset (Fin 4)).image (Pipeline.arrRef spec0) = {main_v0, main_arg1, main_v1} from by decide,
    bigSep_insert (by decide), bigSep_insert (by decide), bigSep_singleton]
  rfl

end Deal

section Entry

variable (V : (c : Dev nD) → (b : Ref sig .tc) → Buf (Elt F) ((c : Thread nD τ).loc b))

/-- DEAL: the three buffers whole at the full share give the four windows' arrays at the same contents, the
    weights' full share cut into its two halves. -/
theorem arrBufs_deal (c : Dev nD) :
    (Pipeline.arrBufs (Ix := Unit) (Name := ℕ) (U := UR sig nD τ) (Lvl := ℕ) spec0 c (V c) : sProp 𝕄)
      ⊢ (GateUp.dat V c).arrays fun w => V c (Pipeline.arrRef spec0 w) := by
  rw [arrBufs_chain, arrays_chain]
  iintro ⟨H0, H1, H3⟩
  ihave H12 := (pointsTo_share (PosShare.mem_left_op_right fullShare)).1 $$ H1
  icases H12 with ⟨H1, H2⟩
  isplitl [H0]; · iexact H0
  isplitl [H1]; · iexact H1
  isplitl [H2]; · iexact H2
  iexact H3

/-- JOIN: the four windows' arrays, the two weight windows' at one contents, give the three buffers whole at the
    full share, the weights' two halves put together. -/
theorem arrays_join (c : Dev nD) (A : (w : Fin cfg0.W) → Buf (Elt F) ((cfg0.win w).arr.view.loc (c : Thread nD τ)))
    (B : (b : Ref sig .tc) → Buf (Elt F) ((c : Thread nD τ).loc b))
    (h0 : A 0 = B main_v0) (h1 : A 1 = B main_arg1) (h2 : A 2 = B main_arg1) (h3 : A 3 = B main_v1) :
    ((GateUp.dat V c).arrays A : sProp 𝕄)
      ⊢ Pipeline.arrBufs (Ix := Unit) (Name := ℕ) (U := UR sig nD τ) (Lvl := ℕ) spec0 c B := by
  rw [arrBufs_chain, arrays_chain, h0, h1, h2, h3]
  iintro ⟨H0, H1, H2, H3⟩
  isplitl [H0]; · iexact H0
  isplitl [H1 H2]
  · iapply (pointsTo_share (PosShare.mem_left_op_right fullShare)).2
    isplitl [H1]; · iexact H1
    iexact H2
  iexact H3

/-- ENTRY, the buffers: a core's unscoped buffers at contents `V` are the region's arrays as the proof data finds
    them, and the unscoped buffers no window is on. -/
theorem entry_bufs (c : Dev nD) :
    (unscopedBufs (Ix := Unit) (Name := ℕ) (U := UR sig nD τ) (Lvl := ℕ) c (V c) : sProp 𝕄)
      ⊢ iprop((GateUp.dat V c).arrays ((GateUp.dat V c).arrAt · 0)
          ∗ Pipeline.unscopedRest (Ix := Unit) (Name := ℕ) (U := UR sig nD τ) (Lvl := ℕ) spec0 c (V c)) := by
  rw [Pipeline.unscopedBufs_split₀ cfgs 0 winFacts₀0.arr_unscoped c (V c)]
  exact sep_mono (arrBufs_deal V c) .rfl

/-- EXIT, the buffers: the region's arrays as its write-backs leave them, with the unscoped buffers no window is
    on, are the core's unscoped buffers at any contents `V'` that are `V` but at the gated activations, and there
    what the write-backs leave. The token and weight arrays are inputs, never written. -/
theorem exit_bufs (V' : (c : Dev nD) → (b : Ref sig .tc) → Buf (Elt F) ((c : Thread nD τ).loc b)) (c : Dev nD)
    (hne : ∀ b : Ref sig .tc, b ≠ main_v1 → V' c b = V c b)
    (hout : V' c main_v1 = (GateUp.dat V c).arrAt 3 cfg0.N) :
    iprop((GateUp.dat V c).arrays ((GateUp.dat V c).arrAt · cfg0.N)
        ∗ Pipeline.unscopedRest (Ix := Unit) (Name := ℕ) (U := UR sig nD τ) (Lvl := ℕ) spec0 c (V c))
      ⊢ (unscopedBufs (Ix := Unit) (Name := ℕ) (U := UR sig nD τ) (Lvl := ℕ) c (V' c) : sProp 𝕄) := by
  rw [Pipeline.unscopedBufs_split₀ cfgs 0 winFacts₀0.arr_unscoped c (V' c)]
  refine sep_mono (arrays_join V c _ (V' c) ?_ ?_ ?_ ?_) (Entails.of_eq ?_)
  · rw [hne main_v0 (by decide)]; exact (GateUp.dat V c).arrAt_in 0 rfl _
  · rw [hne main_arg1 (by decide)]; exact (GateUp.dat V c).arrAt_in 1 rfl _
  · rw [hne main_arg1 (by decide)]; exact (GateUp.dat V c).arrAt_in 2 rfl _
  · exact hout.symm
  · unfold Pipeline.unscopedRest
    refine bigSep_congr fun b hb => ?_
    have hb' : b ≠ main_v1 := fun h =>
      (Finset.mem_sdiff.mp hb).2 (h ▸ Finset.mem_image.mpr ⟨3, Finset.mem_univ _, rfl⟩)
    rw [hne b hb']

end Entry

/-! ## The contents after the region -/

/-- After the region every buffer but the gated activations holds what it held at entry, -/
theorem V2_ne (c : Dev nD) (b : Ref sig .tc) (h : b ≠ main_v1) : V2 m c b = V1 m c b :=
  Function.update_of_ne (StableHlo.devRef_ne_of_ne h : (Proc.devRef .tc b : DevRef τ sig) ≠ Proc.devRef .tc main_v1) _ _

/-- and the gated activations hold what the region's write-backs leave. -/
theorem V2_out (c : Dev nD) : V2 m c main_v1 = (GateUp.dat (V1 m) c).arrAt 3 cfg0.N :=
  Function.update_self _ _ _

end GateUpBufs

set_option backward.isDefEq.respectTransparency.types false in
/-- The gate/up projection as an item: entered with every unscoped buffer at `W1`, left with them at `W2`. -/
def gateUpSeg : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (GateUp.body_obligation (V1 m) c).loose
  hwaits := Pipeline.hwaits_of_owed_zero _ _ _ _ L lv 0 fun _ _ => rfl
  pre c := heldAt (W1 m) c
  post c := heldAt (W2 m) c
  X c := iprop(∃ r, prngReg c r)
  Y c := iprop(∃ r, prngReg c r)
  Z c := Pipeline.unscopedRest (Ix := Unit) (Name := ℕ) (U := UR sig nD τ) (Lvl := ℕ) spec0 c (V1 m c)
  hentry c := by
    -- the held buffers are the region's arrays (the weights' full share cut in two) and the rest
    have hb := (Entails.of_eq (Pipeline.unscopedBufs_held (Ix := Unit) (Name := ℕ) (U := UR sig nD τ) (Lvl := ℕ)
      c (W1 m c)).symm).trans (GateUpBufs.entry_bufs (V1 m) c)
    rw [Pipeline.ownSems0_none]
    unfold Pipeline.prefHeld
    rw [show (Finset.univ : Finset (Fin 0)) = ∅ from rfl, BI.bigSep_empty]
    iintro ⟨⟨Hheld, HX, %W, HW⟩, -, -⟩
    imodintro
    ihave Hb := hb $$ Hheld
    icases Hb with ⟨Ha, HZ⟩
    isplitl [Ha]; · iexact Ha
    isplitr; · iempintro
    isplitl [HW]
    · -- nothing owed; every recorded pair lies within the bound, which is everything
      iexists W; isplitr; · ipureintro; exact fun _ _ => Or.inl trivial
      iexact HW
    isplitl [HX]; · iexact HX
    iexact HZ
  hin c := by
    show iprop((∃ r, prngReg c r) ∗ Pipeline.prefHeld (pcfgs (F := F) 0).pre c (fun _ => fullShare) (adm 0).1
      ∗ Pipeline.scopedRest spec0 c) ⊢ Pipeline.ΦA spec0 c
    unfold Pipeline.ΦA Pipeline.prefHeld
    rw [show (Finset.univ : Finset (Fin 0)) = ∅ from rfl, BI.bigSep_empty]
    iintro ⟨HX, -, HS⟩
    isplitl [HS]; · iexact HS
    iexact HX
  hout c := by
    show Pipeline.ΦA spec0 c
      ⊢ iprop((∃ r, prngReg c r) ∗ Pipeline.ownSems0 (fun k : PEmpty => k.elim) c ∗ Pipeline.scopedRest spec0 c)
    unfold Pipeline.ΦA
    rw [Pipeline.ownSems0_none]
    iintro ⟨HS, HX⟩
    isplitl [HX]; · iexact HX
    isplitr [HS]; · iempintro
    iexact HS
  hexit c := by
    -- the region's arrays (the weights' halves joined) and the rest are the held buffers at the new contents
    have hb := (GateUpBufs.exit_bufs (V1 m) (V2 m) c (GateUpBufs.V2_ne m c) (GateUpBufs.V2_out m c)).trans
      (Entails.of_eq (Pipeline.unscopedBufs_held (Ix := Unit) (Name := ℕ) (U := UR sig nD τ) (Lvl := ℕ) c (W2 m c)))
    iintro ⟨Ha, ⟨%W, -, HW⟩, HY, HZ⟩
    imodintro
    isplitl [Ha HZ]
    · iapply hb
      isplitl [Ha]; · iexact Ha
      iexact HZ
    isplitl [HY]; · iexact HY
    iexists W; iexact HW

end Cert.Kernel.MainRun

end
-- ==== Proof.Bits.DownSeg.lean ====
/-
  The down projection as an item of @main's run: entered with every unscoped buffer held at the contents the
  gate/up projection left, left with them at the same contents but for the per-expert result, which holds what
  the region's write-backs leave. The scratch accumulator enters the region's invariant from the core's scoped
  buffers and is given back to them at the end.
  Stated at any float instance: the same text serves the word-level program and the idealized one.
-/
import proofs.«146660_j9483287789704_1_alg».proof.Proof.Gen.Kernel.Launch
import proofs.«146660_j9483287789704_1_alg».proof.Proof.Gen.Kernel.Skeleton
import proofs.«146660_j9483287789704_1_alg».proof.Proof.Gen.Kernel.Points
import proofs.«146660_j9483287789704_1_alg».proof.Proof.Bits.Boundaries
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.MainRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- The second region has no prefetched table: the tables' conjunct is empty. -/
theorem down_prefHeld (c : Dev nD) :
    (Pipeline.prefHeld (pcfgs (F := F) 1).pre c (fun _ => fullShare) (adm (F := F) 1).1 : sProp 𝕄) = BI.emp := by
  unfold Pipeline.prefHeld
  rw [show (Finset.univ : Finset (Fin 0)) = ∅ from rfl, BI.bigSep_empty]

/-- Off the per-expert result, the contents after the down projection are those before it. -/
theorem W3_of_ne (c : Dev nD) (r : Ref sig .tc) (h : r ≠ main_v2) : W3 m c r = W2 m c r := by
  unfold W3
  exact Function.update_of_ne (StableHlo.devRef_ne_of_ne h) _ _

/-- The per-expert result after the down projection: what the region's write-backs leave. -/
theorem W3_main_v2 (c : Dev nD) : W3 m c main_v2 = (Down.dat (V2 m) c).arrAt 2 cfg1.N := by
  unfold W3
  exact Function.update_self _ _ _

set_option backward.isDefEq.respectTransparency.types false in
/-- The down projection as an item: entered with every unscoped buffer at `W2`, left with them at `W3`. -/
def downSeg : Pipeline.RegionSeg (pcfgs (F := F)) adm (pdats m) () defs₀ 𝒱₀ L lv 1 where
  win := winFacts1.to₀
  block_pos := block_pos1
  stage_whole := stage_whole1
  K := PEmpty
  osem k := k.elim
  ho := Pipeline.OwnSemFacts.none _
  hbody c := (Down.body_obligation (V2 m) c).loose
  hwaits := Pipeline.hwaits_of_owed_zero _ _ _ _ L lv 1 fun _ _ => rfl
  pre c := heldAt (W2 m) c
  post c := heldAt (W3 m) c
  X c := iprop(∃ r, prngReg c r)
  Y c := iprop(∃ r, prngReg c r)
  Z c := Pipeline.unscopedRest (Ix := Unit) (Name := ℕ) (U := UR sig nD τ) (Lvl := ℕ) spec1 c (V2 m c)
  hentry c := by
    -- the region's three arrays (distinct whole buffers) are split out of the unscoped buffers held at W2; the rest
    -- bypasses the region; nothing is owed; the generator register enters the invariant
    have harr := Pipeline.arrays_of_unscopedBufs (p := 1) (pcfgs (F := F)) adm (pdats m) launch1.win launch1.arr_whole c
      ((pdats m 1 c).share_full fun _ => rfl) (V2 m c) fun _ => rfl
    rw [Pipeline.unscopedBufs_held] at harr
    rw [down_prefHeld]
    iintro ⟨⟨Hh, HX, %W, HO⟩, -, -⟩
    ihave Ha := harr $$ Hh
    icases Ha with ⟨Ha, Hz⟩
    imodintro
    isplitl [Ha]; · iexact Ha
    isplitr; · iempintro
    isplitl [HO]
    · unfold Pipeline.Dat.owesAt Pipeline.owesWithin
      iexists W
      isplitr; · ipureintro; exact fun _ _ => Or.inl trivial
      iexact HO
    isplitl [HX]; · iexact HX
    iexact Hz
  hin c := by
    -- no table; the scoped buffers no window stages are the first region's eight staging buffers and the scratch,
    -- which, whole at some contents, is owned through its whole memref (nothing is claimed of it before point 0)
    show _ ⊢ Down.inv (V2 m) c 0
    rw [down_prefHeld, show (Pipeline.pin (pcfgs (F := F)) adm 1).spec = spec1 from rfl, Gen.scopedRest1_eq]
    unfold Down.inv Down.scratchAt Down.otherScoped
    simp only [owns_whole]
    iintro ⟨HX, -, H0, H1, H2, H3, H4, H5, H6, H7, ⟨%f, HS⟩⟩
    isplitl [HS]
    · iexists f
      isplitl [HS]; · iexact HS
      ipureintro; intro h; exact absurd rfl h
    isplitr [HX]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    iexact HX
  hout c := by
    -- the converse: the fact about the scratch's contents is forgotten
    show Down.inv (V2 m) c (Fin.last _) ⊢ _
    rw [Pipeline.ownSems0_none, show (Pipeline.pin (pcfgs (F := F)) adm 1).spec = spec1 from rfl, Gen.scopedRest1_eq]
    unfold Down.inv Down.scratchAt Down.otherScoped
    simp only [owns_whole]
    iintro ⟨⟨%a, HS, -⟩, ⟨H0, H1, H2, H3, H4, H5, H6, H7⟩, HX⟩
    isplitl [HX]; · iexact HX
    isplitr; · iempintro
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists a; iexact HS
  hexit c := by
    -- the arrays at their final contents and the bypassed rest are the unscoped buffers held at W3: the result at what
    -- the write-backs leave, the two inputs never written, every other buffer as at W2
    have hF : ∀ w, (pdats m 1 c).arrAt w cfg1.N = W3 m c (Pipeline.arrRef spec1 w) := fun w =>
      match w with
      | 0 => ((pdats m 1 c).arrAt_in 0 rfl _).trans (W3_of_ne m c main_v1 (by decide)).symm
      | 1 => ((pdats m 1 c).arrAt_in 1 rfl _).trans (W3_of_ne m c main_arg2 (by decide)).symm
      | 2 => (W3_main_v2 m c).symm
    have hrest : ∀ b : Ref sig .tc, b ∉ Finset.univ.image (Pipeline.arrRef spec1) → W3 m c b = V2 m c b := fun b hb =>
      W3_of_ne m c b fun h => hb (h ▸ Finset.mem_image.mpr ⟨2, Finset.mem_univ _, rfl⟩)
    have hex := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl) (V2 m c) (fun b => W3 m c b)
      ((pdats m 1 c).arrAt · cfg1.N) hF hrest
    rw [Pipeline.unscopedBufs_held] at hex
    iintro ⟨Ha, ⟨%W, -, HO⟩, HY, HZ⟩
    ihave Hh := hex $$ [Ha HZ]
    · isplitl [Ha]; · iexact Ha
      iexact HZ
    imodintro
    isplitl [Hh]; · iexact Hh
    isplitl [HY]; · iexact HY
    iexists W; iexact HO

end Cert.Kernel.MainRun

end
-- ==== Proof.Bits.MainRun.lean ====
/-
  The whole run of @main: reshape the tokens per expert, the gate/up projection, the down projection, reshape the
  result back. One launch over the four items gives, for every weakly fair execution, termination without a fault
  and a final memory holding every unscoped buffer at the contents named for the last boundary.
  Stated at any float instance: the same text serves the word-level program and the idealized one.
-/
import proofs.«146660_j9483287789704_1_alg».proof.Proof.Gen.Kernel.Launch
import proofs.«146660_j9483287789704_1_alg».proof.Proof.Gen.Kernel.Skeleton
import proofs.«146660_j9483287789704_1_alg».proof.Proof.Gen.Kernel.Points
import proofs.«146660_j9483287789704_1_alg».proof.Proof.Bits.Boundaries
import proofs.«146660_j9483287789704_1_alg».proof.Proof.Bits.GateUpSeg
import proofs.«146660_j9483287789704_1_alg».proof.Proof.Bits.DownSeg
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.MainRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- A host stretch as an item over the unscoped buffers from contents `W`, `R` riding along. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- @main's four items in order. -/
abbrev segs : List (Pipeline.Seg (pcfgs (F := F)) adm (pdats m) () defs₀ 𝒱₀ L lv) :=
  [ .host (hostSeg hostOps0 hostOps0_sub hostOps0_fresh (W0 m)),
    .region (gateUpSeg m),
    .region (downSeg m),
    .host (hostSeg hostOps2 hostOps2_sub hostOps2_fresh (W3 m)) ]

theorem main_run (c : Dev nD) : main (F := F) c = Pipeline.Seg.run (segs m) := (main_chain c).trans (by chain_rfl)

set_option backward.isDefEq.respectTransparency.types false in
/-- THE RUN: from any memory with zero counters every weakly fair execution of @main terminates, nothing faulting,
    in a memory that holds every unscoped buffer of every core at `W4`. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W4 m c b) := by
  refine Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := ?launch)
    (T₀ := heldAt (W0 m))
    (Tₙ := fun c => iprop(StableHlo.held (c : Thread nD τ) (Pipeline.ucRefs τ sig) (W4 m c) ∗ ∃ r, prngReg c r))
    (hch := ⟨fun _ => .rfl, fun _ => .rfl, fun _ => .rfl, fun _ => .rfl, fun c => ?last⟩)
    (hinit := ?init)
    (QY := fun c s => ∀ b ∈ Pipeline.ucRefs τ sig, s.mem (((c : Thread nD τ)).1, b) = W4 m c b)
    (hfin := fun c s' => ?fin) (hQ := fun _ h => h)
  case launch =>
    -- the launch element is the pipelines' own; no further ghost resource is dealt
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  case last =>
    -- the last item leaves the buffers, the register and the (empty) debt; regroup
    show iprop(StableHlo.held (c : Thread nD τ) (Pipeline.ucRefs τ sig) (W4 m c) ∗ R (F := F) c) ⊢ _
    iintro ⟨Hh, Hp, HO⟩
    isplitl [Hh Hp]
    · isplitl [Hh]; · iexact Hh
      iexact Hp
    iexact HO
  case init =>
    -- every core starts holding its unscoped buffers at the launch memory, its register, and owing nothing
    refine Pipeline.initEach L lv fun c => ?_
    rw [show unscopedBufs c (fun b => m ((c : Thread nD τ).loc b)) = StableHlo.held (c : Thread nD τ) (Pipeline.ucRefs τ sig) (W0 m c)
      from Pipeline.unscopedBufs_held c (W0 m c)]
    iintro ⟨⟨Hh, -, HO, -, Hp, -⟩, -⟩
    imodintro
    isplitl [Hh]; · iexact Hh
    isplitl [Hp]; · iexists _; iexact Hp
    iexists ∅; iexact HO
  case fin =>
    -- the buffers held at the last contents are what the final memory holds
    iintro ⟨⟨Hh, -⟩, HSI⟩
    unfold StableHlo.held
    imodintro
    iapply (pointsTo_read_all (Pipeline.ucRefs τ sig) (fun b => (((c : Thread nD τ)).1, b)) (W4 m c) s')
    isplitl [Hh] <;> iassumption

end Cert.Kernel.MainRun

end
-- ==== Proof.Bits.Frame.lean ====
/-
  The frame claim, read off the run. A buffer that no host stretch writes and that is neither region's output holds
  at the end what it held at launch; the three arguments are such buffers. So every weakly fair execution of @main
  terminates, nothing faulting, with the arguments unchanged.
  Stated at any float instance: the same text serves the word-level program and the idealized one.
-/
import proofs.«146660_j9483287789704_1_alg».proof.Proof.Gen.Kernel.Launch
import proofs.«146660_j9483287789704_1_alg».proof.Proof.Gen.Kernel.Skeleton
import proofs.«146660_j9483287789704_1_alg».proof.Proof.Gen.Kernel.Points
import proofs.«146660_j9483287789704_1_alg».proof.Proof.Bits.MainRun
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.MainRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- A buffer neither reshape writes and that is neither region's output ends at its launch contents. -/
theorem W4_of_unwritten (c : Dev nD) (r : Ref sig .tc) (h0 : r ∉ hostOps0_W) (h1 : r ≠ main_v1) (h2 : r ≠ main_v2)
    (h3 : r ∉ hostOps2_W) : W4 m c r = m ((c : Thread nD τ).loc r) := by
  have e3 : W4 m c r = W3 m c r := StableHlo.after_of_writes_sub hostOps2 _ hostOps2_writes h3
  have e2 : W3 m c r = W2 m c r := by
    unfold W3; exact Function.update_of_ne (StableHlo.devRef_ne_of_ne h2 : (Proc.devRef .tc r : DevRef τ sig) ≠ Proc.devRef .tc main_v2) _ _
  have e1 : W2 m c r = W1 m c r := by
    unfold W2; exact Function.update_of_ne (StableHlo.devRef_ne_of_ne h1 : (Proc.devRef .tc r : DevRef τ sig) ≠ Proc.devRef .tc main_v1) _ _
  have e0 : W1 m c r = W0 m c r := StableHlo.after_of_writes_sub hostOps0 _ hostOps0_writes h0
  exact e3.trans (e2.trans (e1.trans (e0.trans rfl)))

/-- An unscoped TensorCore buffer is among those the run reads back. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: every weakly fair execution terminates, nothing faulting, with the three arguments as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W4_of_unwritten m c main_arg0 (by decide) (by decide) (by decide) (by decide)),
     (h c _ (mem_uc main_arg1 (by decide))).trans (W4_of_unwritten m c main_arg1 (by decide) (by decide) (by decide) (by decide)),
     (h c _ (mem_uc main_arg2 (by decide))).trans (W4_of_unwritten m c main_arg2 (by decide) (by decide) (by decide) (by decide))⟩)
    (run_all m ρ)

end Cert.Kernel.MainRun

end
-- ==== Proof.GateUp.lean ====
/-
  The gate/up projection (the first kernel region): at grid point (e, n) the body multiplies expert e's
  1024 × 2048 token block by the n-th 2048 × 512 column tile of the gate half and of the up half of that
  expert's projection matrix, and stores up · (gate · logistic gate) as the (e, n) tile of the gated
  activations. Both weight tiles are windows on ONE array, so the core holds that array at two half shares.
  Stated at any float instance: the same text serves the word-level program and the idealized one.
-/
import proofs.«146660_j9483287789704_1_alg».proof.Proof.Gen.KernelIdeal.Launch
import proofs.«146660_j9483287789704_1_alg».proof.Proof.Gen.KernelIdeal.Skeleton
import proofs.«146660_j9483287789704_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.GateUp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffer contents the region is entered from, per core
variable (V : (c : Dev nD) → (b : Ref sig .tc) → Buf (Elt F) ((c : Thread nD τ).loc b))

/-- Window `w`'s block of its array at grid point `t`, as the region finds the array. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The gated tile from a token block and the two weight tiles: up · (gate · logistic gate), with gate and up
    the two matrix products (the body's one stored value). -/
def gatedTile (x : Vec F S1x1024x2048 .f32) (g u : Vec F S1x2048x512 .f32) : Vec F S1x1024x512 .bf16 :=
  k0_pay1 x g u

/-- Every access of the body starts at the origin of its three-axis buffer. -/
theorem origin3 : (![0, 0, 0] : Fin 3 → ℕ) = fun _ => 0 :=
  funext fun a => by match a with | 0 => rfl | 1 => rfl | 2 => rfl

/-- The rectangle the body stores its one value through: the whole output buffer. -/
abbrev outRect : Rect S1x1024x512 :=
  Rect.unit (s := S1x1024x512) ![0, 0, 0] S1x1024x512.size inb_S1x1024x512_S1x1024x512_0_0_0

/-- The one store covers the output buffer, whatever it stores. -/
theorem outRect_covers (p : Vec F S1x1024x512 .bf16) (y : S1x1024x512.Idx) :
    ∃ pc ∈ ([⟨outRect, p⟩] : List (View.Piece (Elt F) S1x1024x512 .bf16)), y ∈ pc.1.set :=
  ⟨_, List.mem_singleton_self _, View.mem_set_unit_zero (S := S1x1024x512) origin3 inb_S1x1024x512_S1x1024x512_0_0_0 y⟩

/-- The body on whole staging memrefs: the three inputs at known contents and the output at anything run to
    the inputs unchanged and the output at the gated tile. -/
theorem sound_kernel (c : Dev nD) (E : Set ℕ) (i : grid0.Coords)
    (arg2 : Memref sig .tc .vmem S1x1024x2048 .f32) (harg2 : arg2.IsWhole)
    (arg3 : Memref sig .tc .vmem S1x2048x512 .f32) (harg3 : arg3.IsWhole)
    (arg4 : Memref sig .tc .vmem S1x2048x512 .f32) (harg4 : arg4.IsWhole)
    (arg5 : Memref sig .tc .vmem S1x1024x512 .bf16) (harg5 : arg5.IsWhole)
    (x : Vec F S1x1024x2048 .f32) (g u : Vec F S1x2048x512 .f32) (K : PUnit → sProp 𝕄) :
    iprop(owns (c : Thread nD τ) arg2 fullShare x ∗ owns (c : Thread nD τ) arg3 fullShare g ∗ owns (c : Thread nD τ) arg4 fullShare u
        ∗ (∃ d, owns (c : Thread nD τ) arg5 fullShare d)
        ∗ (iprop(owns (c : Thread nD τ) arg2 fullShare x ∗ owns (c : Thread nD τ) arg3 fullShare g ∗ owns (c : Thread nD τ) arg4 fullShare u
            ∗ owns (c : Thread nD τ) arg5 fullShare (gatedTile x g u)) -∗ K ⟨⟩))
      ⊢ wp frame (wpE (defs₀ (F := F)) Variants.none c none) E (cc0__gateup_kernel i arg2 harg2 arg3 harg3 arg4 harg4 arg5 harg5) K := by
  simp only [cc0__gateup_kernel_eq_skeleton]; unfold cc0__gateup_kernel_skel
  unfold owns
  iintro ⟨⟨%f2, %hf2, H2⟩, ⟨%f3, %hf3, H3⟩, ⟨%f4, %hf4, H4⟩, ⟨%d5, %f5, -, H5⟩, Hk⟩
  subst hf2 hf3 hf4
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  -- the one store covers the output buffer, so the buffer reads back as the stored value; each load is of a
  -- whole buffer, so it reads the buffer's contents
  refine (View.read_writes_eq_canon _ _ _ (outRect_covers _)).trans ?_
  rw [View.canon_unit_zero (S := S1x1024x512) origin3]
  simp only [View.readAt_eq_ld, View.ld_unit_zero (S := S1x1024x2048) origin3, View.ld_unit_zero (S := S1x2048x512) origin3]
  rfl

/-- The region's proof data on core `c`: the arrays as found; after the body each input's buffer at its block and
    the output's at the gated tile of the three input blocks; the invariant the scoped rest and the generator
    register, untouched; nothing owed; the shared weight array at its left half for the gate window and its right
    half for the up window. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => gatedTile (blk V c 0 t) (blk V c 1 t) (blk V c 2 t)
  Φ _ := Pipeline.ΦA spec0 c
  q w := match w with
    | ⟨0, _⟩ => fullShare
    | ⟨1, _⟩ => fullShare.left
    | ⟨2, _⟩ => fullShare.right
    | ⟨3, _⟩ => fullShare
  owed _ := 0

theorem A_eq (c : Dev nD) (w : Fin cfg0.W) : (dat V c).A w = V c (Pipeline.arrRef spec0 w) := by
  dsimp only [dat]
theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) :
    (dat V c).after 3 t = gatedTile (blk V c 0 t) (blk V c 1 t) (blk V c 2 t) := by dsimp only [dat]

/-- Each input window's current buffer holds the window's block at every point, fetched there or not: where it is
    not fetched its block index has not moved, and the body left the block in place. -/
theorem before_0 (c : Dev nD) (t : Fin cfg0.N) (d) : (dat V c).before 0 t d = blk V c 0 t :=
  ((dat V c).before_in_eq_fetched 0 rfl (fun _ => rfl) (fun _ _ _ => rfl)
      (fun t => by rw [after_0]; unfold Dat.blockOf blk; rw [A_eq]; try rfl) t d).trans
    (by unfold Dat.fetched Dat.blockOf blk; rw [A_eq]; try rfl)
theorem before_1 (c : Dev nD) (t : Fin cfg0.N) (d) : (dat V c).before 1 t d = blk V c 1 t :=
  ((dat V c).before_in_eq_fetched 1 rfl (fun _ => rfl) (fun _ _ _ => rfl)
      (fun t => by rw [after_1]; unfold Dat.blockOf blk; rw [A_eq]; try rfl) t d).trans
    (by unfold Dat.fetched Dat.blockOf blk; rw [A_eq]; try rfl)
theorem before_2 (c : Dev nD) (t : Fin cfg0.N) (d) : (dat V c).before 2 t d = blk V c 2 t :=
  ((dat V c).before_in_eq_fetched 2 rfl (fun _ => rfl) (fun _ _ _ => rfl)
      (fun t => by rw [after_2]; unfold Dat.blockOf blk; rw [A_eq]; try rfl) t d).trans
    (by unfold Dat.fetched Dat.blockOf blk; rw [A_eq]; try rfl)

/-- The body at grid point `t`, on the four windows' current buffers: the inputs hold their blocks, so the body's
    triple applies at those blocks; the invariant and what the core owes pass through unread. -/
theorem body_at (c : Dev nD) (t : Fin cfg0.N) :
    iprop((dat V c).Φ t.castSucc ∗ (dat V c).owesAt () t.castSucc
        ∗ (∃ d, owns (c : Thread nD τ) (st0_0 t) fullShare ((dat V c).before 0 t d))
        ∗ (∃ d, owns (c : Thread nD τ) (st0_1 t) fullShare ((dat V c).before 1 t d))
        ∗ (∃ d, owns (c : Thread nD τ) (st0_2 t) fullShare ((dat V c).before 2 t d))
        ∗ (∃ d, owns (c : Thread nD τ) (st0_3 t) fullShare ((dat V c).before 3 t d)))
      ⊢ wp frame (wpE (defs₀ (F := F)) Variants.none c none) Set.univ (bodyAt0 t) (fun _ =>
          iprop((dat V c).Φ t.succ ∗ (dat V c).owesAt () t.succ
            ∗ owns (c : Thread nD τ) (st0_0 t) fullShare ((dat V c).after 0 t)
            ∗ owns (c : Thread nD τ) (st0_1 t) fullShare ((dat V c).after 1 t)
            ∗ owns (c : Thread nD τ) (st0_2 t) fullShare ((dat V c).after 2 t)
            ∗ owns (c : Thread nD τ) (st0_3 t) fullShare ((dat V c).after 3 t))) := by
  unfold bodyAt0
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every grid point. -/
theorem body_obligation (c : Dev nD) : BodyObligation (dat (F := F) V c) (defs₀ (F := F)) Variants.none () Set.univ := fun t => by
  rw [bigSep_W0, bigSep_W0]
  exact body_at V c t

end Cert.KernelIdeal.GateUp

end
-- ==== Proof.Down.lean ====
/-
  The down projection (the second kernel region): for expert e the grid walks the eight 512-wide tiles of the
  4096-long contraction. A scratch accumulator carried between grid points is zeroed at the first tile, gains
  (gated tile) · (weight tile) at every tile, and is copied to the expert's 1024 × 2048 output block at the last
  tile; at the other seven tiles the output's staging buffer is left as found.
  Stated at any float instance: the same text serves the word-level program and the idealized one.
-/
import proofs.«146660_j9483287789704_1_alg».proof.Proof.Gen.KernelIdeal.Launch
import proofs.«146660_j9483287789704_1_alg».proof.Proof.Gen.KernelIdeal.Skeleton
import proofs.«146660_j9483287789704_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Down

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffer contents the region is entered from, per core
variable (V : (c : Dev nD) → (b : Ref sig .tc) → Buf (Elt F) ((c : Thread nD τ).loc b))

/-- Window `w`'s block of its array at grid point `t`, as the region finds the array. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The zeroed accumulator. -/
def zeroAcc : Vec F S1024x2048 .f32 := k1_pay1

/-- One tile's step: the accumulator plus (gated tile) · (weight tile). -/
def stepAcc (g : Vec F S1x1024x512 .bf16) (d : Vec F S1x512x2048 .f32) (a : Vec F S1024x2048 .f32) : Vec F S1024x2048 .f32 :=
  k1_pay2 g d a

/-- The output block written from the accumulator. -/
def outBlock (a : Vec F S1024x2048 .f32) : Vec F S1x1024x2048 .f32 := k1_pay3 a

/-- The scratch accumulator after the points below `n`: a point at the first tile of its expert (n ≡ 0 mod 8)
    starts from zero, every other from what the point before left. -/
def acc (c : Dev nD) : ℕ → Vec F S1024x2048 .f32
  | 0 => zeroAcc
  | n + 1 =>
    if h : n < cfg1.N then
      stepAcc (blk V c 0 ⟨n, h⟩) (blk V c 1 ⟨n, h⟩) (if n % 8 = 0 then zeroAcc else acc c n)
    else zeroAcc

theorem acc_succ (c : Dev nD) (t : Fin cfg1.N) :
    acc V c (t.val + 1) = stepAcc (blk V c 0 t) (blk V c 1 t) (if t.val % 8 = 0 then zeroAcc else acc V c t.val) := by
  rw [acc, dif_pos t.isLt]

/-- The scratch before point `t`: at some contents, which away from an expert's first tile are the accumulator. -/
def scratchAt (c : Dev nD) (t : Fin (cfg1.N + 1)) : sProp 𝕄 :=
  iprop(∃ a : Vec F S1024x2048 .f32, owns (c : Thread nD τ) (Memref.whole cc1_scratch0) fullShare a ∗ ⌜t.val % 8 ≠ 0 → a = acc V c t.val⌝)

/-- The core's scoped buffers that are neither a staging buffer of this region nor its scratch: the first
    region's eight staging buffers, each whole at some contents. -/
def otherScoped (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- The region's invariant before point `t`: the scratch, the other scoped buffers, the generator register. -/
def inv (c : Dev nD) (t : Fin (cfg1.N + 1)) : sProp 𝕄 :=
  iprop(scratchAt V c t ∗ otherScoped (F := F) c ∗ ∃ r, prngReg c r)

/-- The region's proof data on core `c`: the arrays as found; after the body each input's buffer at its block and
    the output's at the block written from the accumulator (read only where the block is written back: the last
    tile of each expert); the invariant above; nothing owed; full shares. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => outBlock (acc V c (t.val + 1))
  Φ t := inv V c t
  q _ := fullShare
  owed _ := 0

theorem A_eq (c : Dev nD) (w : Fin cfg1.W) : (dat V c).A w = V c (Pipeline.arrRef spec1 w) := by
  dsimp only [dat]
theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = outBlock (acc V c (t.val + 1)) := by dsimp only [dat]
theorem Φ_eq (c : Dev nD) (t : Fin (cfg1.N + 1)) : (dat V c).Φ t = inv V c t := by dsimp only [dat]

/-! ## The two conditionals, decided over the grid -/

/-- The first conditional's test as the body computes it from the grid coordinates: the contraction tile is the first. -/
abbrev isFirst (i : grid1.Coords) : Prop :=
  Scalar.cmpi .ne (Scalar.extui (Scalar.cmpi .eq (BitVec.ofNat 32 (i 1).val) 0#32)) 0#32 = 1#1

/-- The second conditional's test: the contraction tile is the last. -/
abbrev isLast (i : grid1.Coords) : Prop := k1_cond2 i = 1#1

/-- Over the 8 × 8 grid, row-major, the tile is the first exactly at the points ≡ 0 (mod 8), -/
theorem isFirst_iff : ∀ t : Fin cfg1.N, isFirst (grid1.coords t) ↔ t.val % 8 = 0 :=
  (by decide +kernel : ∀ t : Fin grid1.N, isFirst (grid1.coords t) ↔ t.val % 8 = 0)

/-- and the last exactly at the points ≡ 7 (mod 8). -/
theorem isLast_iff : ∀ t : Fin cfg1.N, isLast (grid1.coords t) ↔ t.val % 8 = 7 :=
  (by decide +kernel : ∀ t : Fin grid1.N, isLast (grid1.coords t) ↔ t.val % 8 = 7)

/-- The whole-buffer rectangles start at the origin. -/
theorem off2 : (![0, 0] : Fin 2 → ℕ) = fun _ => 0 := funext fun a => by fin_cases a <;> rfl
theorem off3 : (![0, 0, 0] : Fin 3 → ℕ) = fun _ => 0 := funext fun a => by fin_cases a <;> rfl

/-! ## The body's three control cases on whole memrefs -/

/-- A store through the whole-buffer rectangle, last, covers every index: of the accumulator, -/
theorem cover2 (w : Vec F S1024x2048 .f32) (L : List (View.Piece (Elt F) S1024x2048 .f32)) (y : S1024x2048.Idx) :
    ∃ p ∈ ((⟨Rect.unit ![0, 0] S1024x2048.size inb_S1024x2048_S1024x2048_0_0, w⟩ : View.Piece (Elt F) S1024x2048 .f32) :: L), y ∈ p.1.set :=
  ⟨_, List.mem_cons_self, View.mem_set_unit_zero (S := S1024x2048) off2 inb_S1024x2048_S1024x2048_0_0 y⟩

/-- and of the output block. -/
theorem cover3 (w : Vec F S1x1024x2048 .f32) (L : List (View.Piece (Elt F) S1x1024x2048 .f32)) (y : S1x1024x2048.Idx) :
    ∃ p ∈ ((⟨Rect.unit ![0, 0, 0] S1x1024x2048.size inb_S1x1024x2048_S1x1024x2048_0_0_0, w⟩ : View.Piece (Elt F) S1x1024x2048 .f32) :: L), y ∈ p.1.set :=
  ⟨_, List.mem_cons_self, View.mem_set_unit_zero (S := S1x1024x2048) off3 inb_S1x1024x2048_S1x1024x2048_0_0_0 y⟩

/-- The body at a tile that is neither an expert's first nor its last, on whole memrefs: the inputs at `g` and
    `d`, the output's buffer at `o`, the scratch at `a`. Neither conditional is taken; the one store covers the
    scratch, which therefore reads as its payload, `a` plus (gated tile) · (weight tile); everything else is left
    as found. -/
theorem run_mid (c : Dev nD) (E : Set ℕ) (i : grid1.Coords)
    (arg2 : Memref sig .tc .vmem S1x1024x512 .bf16) (harg2 : arg2.IsWhole)
    (arg3 : Memref sig .tc .vmem S1x512x2048 .f32) (harg3 : arg3.IsWhole)
    (arg4 : Memref sig .tc .vmem S1x1024x2048 .f32) (harg4 : arg4.IsWhole)
    (arg5 : Memref sig .tc .vmem S1024x2048 .f32) (harg5 : arg5.IsWhole)
    (hc1 : ¬isFirst i) (hc2 : ¬isLast i)
    (g : Vec F S1x1024x512 .bf16) (d : Vec F S1x512x2048 .f32) (o : Vec F S1x1024x2048 .f32) (a : Vec F S1024x2048 .f32)
    (K : PUnit → sProp 𝕄) :
    iprop(owns (c : Thread nD τ) arg2 fullShare g ∗ owns (c : Thread nD τ) arg3 fullShare d
        ∗ owns (c : Thread nD τ) arg4 fullShare o ∗ owns (c : Thread nD τ) arg5 fullShare a
        ∗ (iprop(owns (c : Thread nD τ) arg2 fullShare g ∗ owns (c : Thread nD τ) arg3 fullShare d
            ∗ owns (c : Thread nD τ) arg4 fullShare o ∗ owns (c : Thread nD τ) arg5 fullShare (stepAcc g d a)) -∗ K ⟨⟩))
      ⊢ wp frame (wpE (defs₀ (F := F)) Variants.none c none) E (cc1__down_kernel i arg2 harg2 arg3 harg3 arg4 harg4 arg5 harg5) K := by
  simp only [cc1__down_kernel_eq_skeleton]; unfold cc1__down_kernel_skel
  unfold owns
  iintro ⟨⟨%f2, %hf2, H2⟩, ⟨%f3, %hf3, H3⟩, ⟨%f4, %hf4, H4⟩, ⟨%f5, %hf5, H5⟩, Hk⟩
  subst hf2 hf3 hf4 hf5
  sl_exec (disch := first | sl_exact hc1 | sl_exact hc2)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover2 _ _), View.canon_unit_zero (S := S1024x2048) off2]
  simp only [View.readAt_eq_ld, View.ld_unit_zero (S := S1024x2048) off2, View.ld_unit_zero (S := S1x1024x512) off3, View.ld_unit_zero (S := S1x512x2048) off3]
  rfl

/-- The body at an expert's first tile: the scratch is overwritten with zeros, read back, and overwritten with the
    zeros plus the tile's product. The later store covers the earlier one, and the load between them reads the
    zeros, so the scratch ends at one step from zero whatever it held; the output's buffer is left as found. -/
theorem run_first (c : Dev nD) (E : Set ℕ) (i : grid1.Coords)
    (arg2 : Memref sig .tc .vmem S1x1024x512 .bf16) (harg2 : arg2.IsWhole)
    (arg3 : Memref sig .tc .vmem S1x512x2048 .f32) (harg3 : arg3.IsWhole)
    (arg4 : Memref sig .tc .vmem S1x1024x2048 .f32) (harg4 : arg4.IsWhole)
    (arg5 : Memref sig .tc .vmem S1024x2048 .f32) (harg5 : arg5.IsWhole)
    (hc1 : isFirst i) (hc2 : ¬isLast i)
    (g : Vec F S1x1024x512 .bf16) (d : Vec F S1x512x2048 .f32) (o : Vec F S1x1024x2048 .f32) (a : Vec F S1024x2048 .f32)
    (K : PUnit → sProp 𝕄) :
    iprop(owns (c : Thread nD τ) arg2 fullShare g ∗ owns (c : Thread nD τ) arg3 fullShare d
        ∗ owns (c : Thread nD τ) arg4 fullShare o ∗ owns (c : Thread nD τ) arg5 fullShare a
        ∗ (iprop(owns (c : Thread nD τ) arg2 fullShare g ∗ owns (c : Thread nD τ) arg3 fullShare d
            ∗ owns (c : Thread nD τ) arg4 fullShare o ∗ owns (c : Thread nD τ) arg5 fullShare (stepAcc g d zeroAcc)) -∗ K ⟨⟩))
      ⊢ wp frame (wpE (defs₀ (F := F)) Variants.none c none) E (cc1__down_kernel i arg2 harg2 arg3 harg3 arg4 harg4 arg5 harg5) K := by
  simp only [cc1__down_kernel_eq_skeleton]; unfold cc1__down_kernel_skel
  unfold owns
  iintro ⟨⟨%f2, %hf2, H2⟩, ⟨%f3, %hf3, H3⟩, ⟨%f4, %hf4, H4⟩, ⟨%f5, %hf5, H5⟩, Hk⟩
  subst hf2 hf3 hf4 hf5
  sl_exec (disch := first | sl_exact hc1 | sl_exact hc2)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  sl_unfold_words
  rw [View.read_writes_eq_canon _ _ _ (cover2 _ _), View.canon_cons_unit_zero (S := S1024x2048) off2,
    View.readCov_unit_zero (S := S1024x2048) _ off2]
  simp only [View.readAt_eq_ld, View.ld_unit_zero (S := S1024x2048) off2, View.ld_unit_zero (S := S1x1024x512) off3, View.ld_unit_zero (S := S1x512x2048) off3]
  rfl

/-- The body at an expert's last tile: the scratch gains the tile's product as at any later tile, is read back,
    and what was read is stored, with a unit axis put in front, over the whole of the output's buffer. -/
theorem run_last (c : Dev nD) (E : Set ℕ) (i : grid1.Coords)
    (arg2 : Memref sig .tc .vmem S1x1024x512 .bf16) (harg2 : arg2.IsWhole)
    (arg3 : Memref sig .tc .vmem S1x512x2048 .f32) (harg3 : arg3.IsWhole)
    (arg4 : Memref sig .tc .vmem S1x1024x2048 .f32) (harg4 : arg4.IsWhole)
    (arg5 : Memref sig .tc .vmem S1024x2048 .f32) (harg5 : arg5.IsWhole)
    (hc1 : ¬isFirst i) (hc2 : isLast i)
    (g : Vec F S1x1024x512 .bf16) (d : Vec F S1x512x2048 .f32) (o : Vec F S1x1024x2048 .f32) (a : Vec F S1024x2048 .f32)
    (K : PUnit → sProp 𝕄) :
    iprop(owns (c : Thread nD τ) arg2 fullShare g ∗ owns (c : Thread nD τ) arg3 fullShare d
        ∗ owns (c : Thread nD τ) arg4 fullShare o ∗ owns (c : Thread nD τ) arg5 fullShare a
        ∗ (iprop(owns (c : Thread nD τ) arg2 fullShare g ∗ owns (c : Thread nD τ) arg3 fullShare d
            ∗ owns (c : Thread nD τ) arg4 fullShare (outBlock (stepAcc g d a)) ∗ owns (c : Thread nD τ) arg5 fullShare (stepAcc g d a)) -∗ K ⟨⟩))
      ⊢ wp frame (wpE (defs₀ (F := F)) Variants.none c none) E (cc1__down_kernel i arg2 harg2 arg3 harg3 arg4 harg4 arg5 harg5) K := by
  simp only [cc1__down_kernel_eq_skeleton]; unfold cc1__down_kernel_skel
  unfold owns
  iintro ⟨⟨%f2, %hf2, H2⟩, ⟨%f3, %hf3, H3⟩, ⟨%f4, %hf4, H4⟩, ⟨%f5, %hf5, H5⟩, Hk⟩
  subst hf2 hf3 hf4 hf5
  sl_exec (disch := first | sl_exact hc1 | sl_exact hc2)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_words
    rw [View.read_writes_eq_canon _ _ _ (cover3 _ _), View.canon_unit_zero (S := S1x1024x2048) off3,
      View.readCov_unit_zero (S := S1024x2048) _ off2]
    simp only [View.readAt_eq_ld, View.ld_unit_zero (S := S1024x2048) off2, View.ld_unit_zero (S := S1x1024x512) off3, View.ld_unit_zero (S := S1x512x2048) off3]
    rfl
  iexists _; isplitr
  swap; · iexact H5
  ipureintro
  sl_unfold_words
  rw [View.read_writes_eq_canon _ _ _ (cover2 _ _), View.canon_unit_zero (S := S1024x2048) off2]
  simp only [View.readAt_eq_ld, View.ld_unit_zero (S := S1024x2048) off2, View.ld_unit_zero (S := S1x1024x512) off3, View.ld_unit_zero (S := S1x512x2048) off3]
  rfl

/-! ## What the body finds in, and leaves in, each window's buffer -/

/-- Each input's current staging buffer holds its block of the array: both inputs are fetched at every point. -/
theorem before_0 (c : Dev nD) (t : Fin cfg1.N) (d) : (dat V c).before 0 t d = blk V c 0 t :=
  ((dat V c).before_fetched 0 t (fetch1_0 t) d).trans (by unfold Dat.fetched Dat.blockOf blk; rw [A_eq]; rfl)
theorem before_1 (c : Dev nD) (t : Fin cfg1.N) (d) : (dat V c).before 1 t d = blk V c 1 t :=
  ((dat V c).before_fetched 1 t (fetch1_1 t) d).trans (by unfold Dat.fetched Dat.blockOf blk; rw [A_eq]; rfl)

/-- The inputs are never idle: after the body each holds its block still. -/
theorem leaves_0 (c : Dev nD) (t : Fin cfg1.N) :
    (dat V c).leavesExact 0 t = owns (c : Thread nD τ) (st1_0 t) fullShare (blk V c 0 t) := by
  unfold Dat.leavesExact; rw [show cfg1.idle 0 (cfg1.grid.coords t) = false from rfl, after_0]
theorem leaves_1 (c : Dev nD) (t : Fin cfg1.N) :
    (dat V c).leavesExact 1 t = owns (c : Thread nD τ) (st1_1 t) fullShare (blk V c 1 t) := by
  unfold Dat.leavesExact; rw [show cfg1.idle 1 (cfg1.grid.coords t) = false from rfl, after_1]

/-- Away from an expert's last tile the output window is idle and not written back: its buffer is handed back as found. -/
theorem leaves_2_idle (c : Dev nD) (t : Fin cfg1.N) (h7 : ¬t.val % 8 = 7) :
    (dat V c).leavesExact 2 t = iprop(∃ d, owns (c : Thread nD τ) (st1_2 t) fullShare ((dat V c).before 2 t d)) := by
  refine Dat.leavesExact_idle (dat V c) 2 t ?_ (Bool.eq_false_iff.mpr fun h => h7 ((flush1_2 t).mp h))
  have hl : ¬k1_cond2 (grid1.coords t) = 1#1 := fun h => h7 ((isLast_iff t).mp h)
  show (!(k1_cond2 (grid1.coords t) == 1#1)) = true
  rw [Bool.not_eq_true', beq_eq_false_iff_ne]; exact hl

/-- At an expert's last tile it is live: its buffer holds the block written from the accumulator. -/
theorem leaves_2_last (c : Dev nD) (t : Fin cfg1.N) (h7 : t.val % 8 = 7) :
    (dat V c).leavesExact 2 t = owns (c : Thread nD τ) (st1_2 t) fullShare (outBlock (acc V c (t.val + 1))) := by
  have hl : k1_cond2 (grid1.coords t) = 1#1 := (isLast_iff t).mpr h7
  unfold Dat.leavesExact
  rw [show cfg1.idle 2 (cfg1.grid.coords t) = false from by
    show (!(k1_cond2 (grid1.coords t) == 1#1)) = false
    rw [hl]; rfl, after_2]

/-- What the body is called with at point `t`: the invariant, what the core owes, each window's current buffer. -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- What it returns. -/
def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t)

/-- The body at any point. The inputs' buffers hold their blocks; the point's residue mod 8 says which of the three
    control cases it is in. At an expert's first tile the scratch is taken at whatever it holds and given back at one
    step from zero; at every other tile the invariant says it holds the accumulator, and it is given back one step on;
    either way that is the accumulator after the point (`acc_succ`). The output's buffer is given back as found
    except at the last tile, where it holds the block written from the accumulator. The other scoped buffers, the
    generator register and what the core owes pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).owesAt () t.succ = (dat V c).owesAt () t.castSucc from rfl, Φ_eq, Φ_eq, leaves_0, leaves_1]
  unfold inv scratchAt
  simp only [Fin.coe_castSucc, Fin.val_succ]
  rw [acc_succ]
  by_cases h0 : t.val % 8 = 0
  · -- an expert's first tile: the accumulator restarts from zero, whatever the scratch held
    have h7 : ¬t.val % 8 = 7 := by omega
    rw [leaves_2_idle V c t h7, if_pos h0]
    iintro ⟨⟨⟨%a, HS, -⟩, HO, Hg⟩, Ho, ⟨%d0, H0⟩, ⟨%d1, H1⟩, ⟨%d2, H2⟩⟩
    iapply (run_first c Set.univ (grid1.coords t) _ _ _ _ _ _ (Memref.whole cc1_scratch0) (Memref.isWhole_whole _)
      ((isFirst_iff t).mpr h0) (fun h => h7 ((isLast_iff t).mp h)) (blk V c 0 t) (blk V c 1 t) ((dat V c).before 2 t d2) a _)
    isplitl [H0]; · iexact H0
    isplitl [H1]; · iexact H1
    isplitl [H2]; · iexact H2
    isplitl [HS]; · iexact HS
    iintro ⟨H0, H1, H2, HS⟩
    isplitl [HS HO Hg]
    · isplitl [HS]
      · iexists _; isplitl [HS]; · iexact HS
        ipureintro; intro _; rfl
      isplitl [HO]; · iexact HO
      iexact Hg
    isplitl [Ho]; · iexact Ho
    isplitl [H0]; · iexact H0
    isplitl [H1]; · iexact H1
    iexists d2; iexact H2
  · rw [if_neg h0]
    by_cases h7 : t.val % 8 = 7
    · -- an expert's last tile: the scratch holds the accumulator, which gains this tile and is copied out
      rw [leaves_2_last V c t h7, acc_succ, if_neg h0]
      iintro ⟨⟨⟨%a, HS, %ha⟩, HO, Hg⟩, Ho, ⟨%d0, H0⟩, ⟨%d1, H1⟩, ⟨%d2, H2⟩⟩
      obtain rfl : a = acc V c t.val := ha h0
      iapply (run_last c Set.univ (grid1.coords t) _ _ _ _ _ _ (Memref.whole cc1_scratch0) (Memref.isWhole_whole _)
        (fun h => h0 ((isFirst_iff t).mp h)) ((isLast_iff t).mpr h7) (blk V c 0 t) (blk V c 1 t) ((dat V c).before 2 t d2) (acc V c t.val) _)
      isplitl [H0]; · iexact H0
      isplitl [H1]; · iexact H1
      isplitl [H2]; · iexact H2
      isplitl [HS]; · iexact HS
      iintro ⟨H0, H1, H2, HS⟩
      isplitl [HS HO Hg]
      · isplitl [HS]
        · iexists _; isplitl [HS]; · iexact HS
          ipureintro; intro _; rfl
        isplitl [HO]; · iexact HO
        iexact Hg
      isplitl [Ho]; · iexact Ho
      isplitl [H0]; · iexact H0
      isplitl [H1]; · iexact H1
      iexact H2
    · -- a tile in between: the scratch holds the accumulator, which gains this tile
      rw [leaves_2_idle V c t h7]
      iintro ⟨⟨⟨%a, HS, %ha⟩, HO, Hg⟩, Ho, ⟨%d0, H0⟩, ⟨%d1, H1⟩, ⟨%d2, H2⟩⟩
      obtain rfl : a = acc V c t.val := ha h0
      iapply (run_mid c Set.univ (grid1.coords t) _ _ _ _ _ _ (Memref.whole cc1_scratch0) (Memref.isWhole_whole _)
        (fun h => h0 ((isFirst_iff t).mp h)) (fun h => h7 ((isLast_iff t).mp h)) (blk V c 0 t) (blk V c 1 t) ((dat V c).before 2 t d2) (acc V c t.val) _)
      isplitl [H0]; · iexact H0
      isplitl [H1]; · iexact H1
      isplitl [H2]; · iexact H2
      isplitl [HS]; · iexact HS
      iintro ⟨H0, H1, H2, HS⟩
      isplitl [HS HO Hg]
      · isplitl [HS]
        · iexists _; isplitl [HS]; · iexact HS
          ipureintro; intro _; rfl
        isplitl [HO]; · iexact HO
        iexact Hg
      isplitl [Ho]; · iexact Ho
      isplitl [H0]; · iexact H0
      isplitl [H1]; · iexact H1
      iexists d2; iexact H2

/-- The body obligation at every grid point. -/
theorem body_obligation (c : Dev nD) : BodyObligation (dat (F := F) V c) (defs₀ (F := F)) Variants.none () Set.univ := fun t => by
  rw [bigSep_W1, bigSep_W1]
  exact sound_body V c t

end Cert.KernelIdeal.Down

end
-- ==== Proof.Boundaries.lean ====
/-
  The contents of a core's unscoped buffers at each boundary of @main — the launch memory, after the tokens are
  reshaped per expert, after the gate/up projection, after the down projection, after the result is reshaped back —
  and both regions' proof data, each at its region's entry contents; with what rides beside the buffers through
  every item (the generator register at some state, nothing owed).
  Stated at any float instance: the same text serves the word-level program and the idealized one.
-/
import proofs.«146660_j9483287789704_1_alg».proof.Proof.Gen.KernelIdeal.Launch
import proofs.«146660_j9483287789704_1_alg».proof.Proof.Gen.KernelIdeal.Skeleton
import proofs.«146660_j9483287789704_1_alg».proof.Proof.Gen.KernelIdeal.Points
import proofs.«146660_j9483287789704_1_alg».proof.Proof.Gen.KernelIdeal.Regions
import proofs.«146660_j9483287789704_1_alg».proof.Proof.GateUp
import proofs.«146660_j9483287789704_1_alg».proof.Proof.Down
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.MainRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffers' contents between items -/

/-- Core `c`'s buffers at launch. -/
abbrev W0 : Dev nD → Valuation τ sig (Elt F) := fun c b => m (c, b)
/-- After the tokens are reshaped per expert (the gate/up projection's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the gate/up projection: the gated activations at what its write-backs leave, all else as entered. -/
def W2 (c : Dev nD) : Valuation τ sig (Elt F) :=
  Function.update (W1 m c) main_v1 ((GateUp.dat (V1 m) c).arrAt 3 cfg0.N)
abbrev V2 : (c : Dev nD) → (b : Ref sig .tc) → Buf (Elt F) ((c : Thread nD τ).loc b) := fun c b => W2 m c b
/-- After the down projection: the per-expert result at what its write-backs leave, all else as entered. -/
def W3 (c : Dev nD) : Valuation τ sig (Elt F) :=
  Function.update (W2 m c) main_v2 ((Down.dat (V2 m) c).arrAt 2 cfg1.N)
/-- After the result is reshaped back. -/
abbrev W4 : Dev nD → Valuation τ sig (Elt F) := fun c => StableHlo.after hostOps2 (W3 m c)

/-! ## The proof data family and what rides beside the buffers -/

/-- Both regions' proof data, each at its region's entry contents. -/
def pdats : (p : Fin 2) → (c : Dev nD) → Dat τ (Elt F) Unit ℕ (UR sig nD τ) ℕ (Pipeline.pin (pcfgs (F := F)) adm p) c
  | ⟨0, _⟩ => fun c => GateUp.dat (V1 m) c
  | ⟨1, _⟩ => fun c => Down.dat (V2 m) c

abbrev 𝒱₀ : Variants := Variants.none
/-- No core owes another anything: no level is assigned. -/
abbrev L : GSem nD τ sig → Finset Unit := fun _ => ∅
abbrev lv : GSem nD τ sig → Unit → ℕ := fun _ _ => 0
/-- Beside the buffers through every item: the generator register at some state, and nothing owed. -/
abbrev R (c : Dev nD) : sProp 𝕄 := iprop((∃ r, prngReg c r) ∗ ∃ W, owes (c : Thread nD τ) (0 : CellTallies nD τ sig Unit) W)

/-- The thread state between items: every unscoped buffer held at the given contents, and `R`. -/
abbrev heldAt (W : Dev nD → Valuation τ sig (Elt F)) (c : Dev nD) : sProp 𝕄 :=
  iprop(StableHlo.held (c : Thread nD τ) (Pipeline.ucRefs τ sig) (W c) ∗ R (F := F) c)

end Cert.KernelIdeal.MainRun

end
-- ==== Proof.GateUpSeg.lean ====
/-
  The gate/up projection as an item of @main's run: entered with every unscoped buffer held at the contents after
  the first reshape, left with them at the same contents but for the gated activations, which hold what the
  region's write-backs leave. At entry the weight array, which two windows read, is dealt to them as two half
  shares; at exit the halves are joined again.
  Stated at any float instance: the same text serves the word-level program and the idealized one.
-/
import proofs.«146660_j9483287789704_1_alg».proof.Proof.Gen.KernelIdeal.Launch
import proofs.«146660_j9483287789704_1_alg».proof.Proof.Gen.KernelIdeal.Skeleton
import proofs.«146660_j9483287789704_1_alg».proof.Proof.Gen.KernelIdeal.Points
import proofs.«146660_j9483287789704_1_alg».proof.Proof.Boundaries
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.MainRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

namespace GateUpBufs

/-! ## The region's windows on three buffers

Windows 1 and 2 (the gate tile and the up tile) read one array, the experts' projection weights; the launch holds
that buffer once, whole, and the region holds it as two half shares, one per window. -/

section Deal

variable (V : (c : Dev nD) → (b : Ref sig .tc) → Buf (Elt F) ((c : Thread nD τ).loc b))

theorem share_0 (c : Dev nD) : (GateUp.dat V c).share 0 = fullShare := rfl
theorem share_1 (c : Dev nD) : (GateUp.dat V c).share 1 = fullShare.left := rfl
theorem share_2 (c : Dev nD) : (GateUp.dat V c).share 2 = fullShare.right := rfl
theorem share_3 (c : Dev nD) : (GateUp.dat V c).share 3 = fullShare := rfl

/-- The four windows' arrays one by one: each a whole buffer, the tokens and the gated activations at the full
    share, the weights at the left half for the gate window and at the right half for the up window. -/
theorem arrays_chain (c : Dev nD) (A : (w : Fin cfg0.W) → Buf (Elt F) ((cfg0.win w).arr.view.loc (c : Thread nD τ))) :
    ((GateUp.dat V c).arrays A : sProp 𝕄)
      = iprop((((c : Thread nD τ).loc main_v0) ↦{fullShare} A 0) ∗ (((c : Thread nD τ).loc main_arg1) ↦{fullShare.left} A 1)
          ∗ (((c : Thread nD τ).loc main_arg1) ↦{fullShare.right} A 2) ∗ (((c : Thread nD τ).loc main_v1) ↦{fullShare} A 3)) := by
  unfold Dat.arrays
  rw [bigSep_W0, share_0, share_1, share_2, share_3, (arr_whole0 0).set_eq_univ, (arr_whole0 1).set_eq_univ,
    (arr_whole0 3).set_eq_univ]

/-- The distinct buffers behind the four windows are three: tokens, weights, gated activations. -/
theorem arrBufs_chain (c : Dev nD) (B : (b : Ref sig .tc) → Buf (Elt F) ((c : Thread nD τ).loc b)) :
    (Pipeline.arrBufs (Ix := Unit) (Name := ℕ) (U := UR sig nD τ) (Lvl := ℕ) spec0 c B : sProp 𝕄)
      = iprop((((c : Thread nD τ).loc main_v0) ↦{fullShare} B main_v0) ∗ (((c : Thread nD τ).loc main_arg1) ↦{fullShare} B main_arg1)
          ∗ (((c : Thread nD τ).loc main_v1) ↦{fullShare} B main_v1)) := by
  unfold Pipeline.arrBufs
  rw [show (Finset.univ : Finset (Fin 4)).image (Pipeline.arrRef spec0) = {main_v0, main_arg1, main_v1} from by decide,
    bigSep_insert (by decide), bigSep_insert (by decide), bigSep_singleton]
  rfl

end Deal

section Entry

variable (V : (c : Dev nD) → (b : Ref sig .tc) → Buf (Elt F) ((c : Thread nD τ).loc b))

/-- DEAL: the three buffers whole at the full share give the four windows' arrays at the same contents, the
    weights' full share cut into its two halves. -/
theorem arrBufs_deal (c : Dev nD) :
    (Pipeline.arrBufs (Ix := Unit) (Name := ℕ) (U := UR sig nD τ) (Lvl := ℕ) spec0 c (V c) : sProp 𝕄)
      ⊢ (GateUp.dat V c).arrays fun w => V c (Pipeline.arrRef spec0 w) := by
  rw [arrBufs_chain, arrays_chain]
  iintro ⟨H0, H1, H3⟩
  ihave H12 := (pointsTo_share (PosShare.mem_left_op_right fullShare)).1 $$ H1
  icases H12 with ⟨H1, H2⟩
  isplitl [H0]; · iexact H0
  isplitl [H1]; · iexact H1
  isplitl [H2]; · iexact H2
  iexact H3

/-- JOIN: the four windows' arrays, the two weight windows' at one contents, give the three buffers whole at the
    full share, the weights' two halves put together. -/
theorem arrays_join (c : Dev nD) (A : (w : Fin cfg0.W) → Buf (Elt F) ((cfg0.win w).arr.view.loc (c : Thread nD τ)))
    (B : (b : Ref sig .tc) → Buf (Elt F) ((c : Thread nD τ).loc b))
    (h0 : A 0 = B main_v0) (h1 : A 1 = B main_arg1) (h2 : A 2 = B main_arg1) (h3 : A 3 = B main_v1) :
    ((GateUp.dat V c).arrays A : sProp 𝕄)
      ⊢ Pipeline.arrBufs (Ix := Unit) (Name := ℕ) (U := UR sig nD τ) (Lvl := ℕ) spec0 c B := by
  rw [arrBufs_chain, arrays_chain, h0, h1, h2, h3]
  iintro ⟨H0, H1, H2, H3⟩
  isplitl [H0]; · iexact H0
  isplitl [H1 H2]
  · iapply (pointsTo_share (PosShare.mem_left_op_right fullShare)).2
    isplitl [H1]; · iexact H1
    iexact H2
  iexact H3

/-- ENTRY, the buffers: a core's unscoped buffers at contents `V` are the region's arrays as the proof data finds
    them, and the unscoped buffers no window is on. -/
theorem entry_bufs (c : Dev nD) :
    (unscopedBufs (Ix := Unit) (Name := ℕ) (U := UR sig nD τ) (Lvl := ℕ) c (V c) : sProp 𝕄)
      ⊢ iprop((GateUp.dat V c).arrays ((GateUp.dat V c).arrAt · 0)
          ∗ Pipeline.unscopedRest (Ix := Unit) (Name := ℕ) (U := UR sig nD τ) (Lvl := ℕ) spec0 c (V c)) := by
  rw [Pipeline.unscopedBufs_split₀ cfgs 0 winFacts₀0.arr_unscoped c (V c)]
  exact sep_mono (arrBufs_deal V c) .rfl

/-- EXIT, the buffers: the region's arrays as its write-backs leave them, with the unscoped buffers no window is
    on, are the core's unscoped buffers at any contents `V'` that are `V` but at the gated activations, and there
    what the write-backs leave. The token and weight arrays are inputs, never written. -/
theorem exit_bufs (V' : (c : Dev nD) → (b : Ref sig .tc) → Buf (Elt F) ((c : Thread nD τ).loc b)) (c : Dev nD)
    (hne : ∀ b : Ref sig .tc, b ≠ main_v1 → V' c b = V c b)
    (hout : V' c main_v1 = (GateUp.dat V c).arrAt 3 cfg0.N) :
    iprop((GateUp.dat V c).arrays ((GateUp.dat V c).arrAt · cfg0.N)
        ∗ Pipeline.unscopedRest (Ix := Unit) (Name := ℕ) (U := UR sig nD τ) (Lvl := ℕ) spec0 c (V c))
      ⊢ (unscopedBufs (Ix := Unit) (Name := ℕ) (U := UR sig nD τ) (Lvl := ℕ) c (V' c) : sProp 𝕄) := by
  rw [Pipeline.unscopedBufs_split₀ cfgs 0 winFacts₀0.arr_unscoped c (V' c)]
  refine sep_mono (arrays_join V c _ (V' c) ?_ ?_ ?_ ?_) (Entails.of_eq ?_)
  · rw [hne main_v0 (by decide)]; exact (GateUp.dat V c).arrAt_in 0 rfl _
  · rw [hne main_arg1 (by decide)]; exact (GateUp.dat V c).arrAt_in 1 rfl _
  · rw [hne main_arg1 (by decide)]; exact (GateUp.dat V c).arrAt_in 2 rfl _
  · exact hout.symm
  · unfold Pipeline.unscopedRest
    refine bigSep_congr fun b hb => ?_
    have hb' : b ≠ main_v1 := fun h =>
      (Finset.mem_sdiff.mp hb).2 (h ▸ Finset.mem_image.mpr ⟨3, Finset.mem_univ _, rfl⟩)
    rw [hne b hb']

end Entry

/-! ## The contents after the region -/

/-- After the region every buffer but the gated activations holds what it held at entry, -/
theorem V2_ne (c : Dev nD) (b : Ref sig .tc) (h : b ≠ main_v1) : V2 m c b = V1 m c b :=
  Function.update_of_ne (StableHlo.devRef_ne_of_ne h : (Proc.devRef .tc b : DevRef τ sig) ≠ Proc.devRef .tc main_v1) _ _

/-- and the gated activations hold what the region's write-backs leave. -/
theorem V2_out (c : Dev nD) : V2 m c main_v1 = (GateUp.dat (V1 m) c).arrAt 3 cfg0.N :=
  Function.update_self _ _ _

end GateUpBufs

set_option backward.isDefEq.respectTransparency.types false in
/-- The gate/up projection as an item: entered with every unscoped buffer at `W1`, left with them at `W2`. -/
def gateUpSeg : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (GateUp.body_obligation (V1 m) c).loose
  hwaits := Pipeline.hwaits_of_owed_zero _ _ _ _ L lv 0 fun _ _ => rfl
  pre c := heldAt (W1 m) c
  post c := heldAt (W2 m) c
  X c := iprop(∃ r, prngReg c r)
  Y c := iprop(∃ r, prngReg c r)
  Z c := Pipeline.unscopedRest (Ix := Unit) (Name := ℕ) (U := UR sig nD τ) (Lvl := ℕ) spec0 c (V1 m c)
  hentry c := by
    -- the held buffers are the region's arrays (the weights' full share cut in two) and the rest
    have hb := (Entails.of_eq (Pipeline.unscopedBufs_held (Ix := Unit) (Name := ℕ) (U := UR sig nD τ) (Lvl := ℕ)
      c (W1 m c)).symm).trans (GateUpBufs.entry_bufs (V1 m) c)
    rw [Pipeline.ownSems0_none]
    unfold Pipeline.prefHeld
    rw [show (Finset.univ : Finset (Fin 0)) = ∅ from rfl, BI.bigSep_empty]
    iintro ⟨⟨Hheld, HX, %W, HW⟩, -, -⟩
    imodintro
    ihave Hb := hb $$ Hheld
    icases Hb with ⟨Ha, HZ⟩
    isplitl [Ha]; · iexact Ha
    isplitr; · iempintro
    isplitl [HW]
    · -- nothing owed; every recorded pair lies within the bound, which is everything
      iexists W; isplitr; · ipureintro; exact fun _ _ => Or.inl trivial
      iexact HW
    isplitl [HX]; · iexact HX
    iexact HZ
  hin c := by
    show iprop((∃ r, prngReg c r) ∗ Pipeline.prefHeld (pcfgs (F := F) 0).pre c (fun _ => fullShare) (adm 0).1
      ∗ Pipeline.scopedRest spec0 c) ⊢ Pipeline.ΦA spec0 c
    unfold Pipeline.ΦA Pipeline.prefHeld
    rw [show (Finset.univ : Finset (Fin 0)) = ∅ from rfl, BI.bigSep_empty]
    iintro ⟨HX, -, HS⟩
    isplitl [HS]; · iexact HS
    iexact HX
  hout c := by
    show Pipeline.ΦA spec0 c
      ⊢ iprop((∃ r, prngReg c r) ∗ Pipeline.ownSems0 (fun k : PEmpty => k.elim) c ∗ Pipeline.scopedRest spec0 c)
    unfold Pipeline.ΦA
    rw [Pipeline.ownSems0_none]
    iintro ⟨HS, HX⟩
    isplitl [HX]; · iexact HX
    isplitr [HS]; · iempintro
    iexact HS
  hexit c := by
    -- the region's arrays (the weights' halves joined) and the rest are the held buffers at the new contents
    have hb := (GateUpBufs.exit_bufs (V1 m) (V2 m) c (GateUpBufs.V2_ne m c) (GateUpBufs.V2_out m c)).trans
      (Entails.of_eq (Pipeline.unscopedBufs_held (Ix := Unit) (Name := ℕ) (U := UR sig nD τ) (Lvl := ℕ) c (W2 m c)))
    iintro ⟨Ha, ⟨%W, -, HW⟩, HY, HZ⟩
    imodintro
    isplitl [Ha HZ]
    · iapply hb
      isplitl [Ha]; · iexact Ha
      iexact HZ
    isplitl [HY]; · iexact HY
    iexists W; iexact HW

end Cert.KernelIdeal.MainRun

end
-- ==== Proof.DownSeg.lean ====
/-
  The down projection as an item of @main's run: entered with every unscoped buffer held at the contents the
  gate/up projection left, left with them at the same contents but for the per-expert result, which holds what
  the region's write-backs leave. The scratch accumulator enters the region's invariant from the core's scoped
  buffers and is given back to them at the end.
  Stated at any float instance: the same text serves the word-level program and the idealized one.
-/
import proofs.«146660_j9483287789704_1_alg».proof.Proof.Gen.KernelIdeal.Launch
import proofs.«146660_j9483287789704_1_alg».proof.Proof.Gen.KernelIdeal.Skeleton
import proofs.«146660_j9483287789704_1_alg».proof.Proof.Gen.KernelIdeal.Points
import proofs.«146660_j9483287789704_1_alg».proof.Proof.Boundaries
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.MainRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The second region has no prefetched table: the tables' conjunct is empty. -/
theorem down_prefHeld (c : Dev nD) :
    (Pipeline.prefHeld (pcfgs (F := F) 1).pre c (fun _ => fullShare) (adm (F := F) 1).1 : sProp 𝕄) = BI.emp := by
  unfold Pipeline.prefHeld
  rw [show (Finset.univ : Finset (Fin 0)) = ∅ from rfl, BI.bigSep_empty]

/-- Off the per-expert result, the contents after the down projection are those before it. -/
theorem W3_of_ne (c : Dev nD) (r : Ref sig .tc) (h : r ≠ main_v2) : W3 m c r = W2 m c r := by
  unfold W3
  exact Function.update_of_ne (StableHlo.devRef_ne_of_ne h) _ _

/-- The per-expert result after the down projection: what the region's write-backs leave. -/
theorem W3_main_v2 (c : Dev nD) : W3 m c main_v2 = (Down.dat (V2 m) c).arrAt 2 cfg1.N := by
  unfold W3
  exact Function.update_self _ _ _

set_option backward.isDefEq.respectTransparency.types false in
/-- The down projection as an item: entered with every unscoped buffer at `W2`, left with them at `W3`. -/
def downSeg : Pipeline.RegionSeg (pcfgs (F := F)) adm (pdats m) () defs₀ 𝒱₀ L lv 1 where
  win := winFacts1.to₀
  block_pos := block_pos1
  stage_whole := stage_whole1
  K := PEmpty
  osem k := k.elim
  ho := Pipeline.OwnSemFacts.none _
  hbody c := (Down.body_obligation (V2 m) c).loose
  hwaits := Pipeline.hwaits_of_owed_zero _ _ _ _ L lv 1 fun _ _ => rfl
  pre c := heldAt (W2 m) c
  post c := heldAt (W3 m) c
  X c := iprop(∃ r, prngReg c r)
  Y c := iprop(∃ r, prngReg c r)
  Z c := Pipeline.unscopedRest (Ix := Unit) (Name := ℕ) (U := UR sig nD τ) (Lvl := ℕ) spec1 c (V2 m c)
  hentry c := by
    -- the region's three arrays (distinct whole buffers) are split out of the unscoped buffers held at W2; the rest
    -- bypasses the region; nothing is owed; the generator register enters the invariant
    have harr := Pipeline.arrays_of_unscopedBufs (p := 1) (pcfgs (F := F)) adm (pdats m) launch1.win launch1.arr_whole c
      ((pdats m 1 c).share_full fun _ => rfl) (V2 m c) fun _ => rfl
    rw [Pipeline.unscopedBufs_held] at harr
    rw [down_prefHeld]
    iintro ⟨⟨Hh, HX, %W, HO⟩, -, -⟩
    ihave Ha := harr $$ Hh
    icases Ha with ⟨Ha, Hz⟩
    imodintro
    isplitl [Ha]; · iexact Ha
    isplitr; · iempintro
    isplitl [HO]
    · unfold Pipeline.Dat.owesAt Pipeline.owesWithin
      iexists W
      isplitr; · ipureintro; exact fun _ _ => Or.inl trivial
      iexact HO
    isplitl [HX]; · iexact HX
    iexact Hz
  hin c := by
    -- no table; the scoped buffers no window stages are the first region's eight staging buffers and the scratch,
    -- which, whole at some contents, is owned through its whole memref (nothing is claimed of it before point 0)
    show _ ⊢ Down.inv (V2 m) c 0
    rw [down_prefHeld, show (Pipeline.pin (pcfgs (F := F)) adm 1).spec = spec1 from rfl, Gen.scopedRest1_eq]
    unfold Down.inv Down.scratchAt Down.otherScoped
    simp only [owns_whole]
    iintro ⟨HX, -, H0, H1, H2, H3, H4, H5, H6, H7, ⟨%f, HS⟩⟩
    isplitl [HS]
    · iexists f
      isplitl [HS]; · iexact HS
      ipureintro; intro h; exact absurd rfl h
    isplitr [HX]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    iexact HX
  hout c := by
    -- the converse: the fact about the scratch's contents is forgotten
    show Down.inv (V2 m) c (Fin.last _) ⊢ _
    rw [Pipeline.ownSems0_none, show (Pipeline.pin (pcfgs (F := F)) adm 1).spec = spec1 from rfl, Gen.scopedRest1_eq]
    unfold Down.inv Down.scratchAt Down.otherScoped
    simp only [owns_whole]
    iintro ⟨⟨%a, HS, -⟩, ⟨H0, H1, H2, H3, H4, H5, H6, H7⟩, HX⟩
    isplitl [HX]; · iexact HX
    isplitr; · iempintro
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists a; iexact HS
  hexit c := by
    -- the arrays at their final contents and the bypassed rest are the unscoped buffers held at W3: the result at what
    -- the write-backs leave, the two inputs never written, every other buffer as at W2
    have hF : ∀ w, (pdats m 1 c).arrAt w cfg1.N = W3 m c (Pipeline.arrRef spec1 w) := fun w =>
      match w with
      | 0 => ((pdats m 1 c).arrAt_in 0 rfl _).trans (W3_of_ne m c main_v1 (by decide)).symm
      | 1 => ((pdats m 1 c).arrAt_in 1 rfl _).trans (W3_of_ne m c main_arg2 (by decide)).symm
      | 2 => (W3_main_v2 m c).symm
    have hrest : ∀ b : Ref sig .tc, b ∉ Finset.univ.image (Pipeline.arrRef spec1) → W3 m c b = V2 m c b := fun b hb =>
      W3_of_ne m c b fun h => hb (h ▸ Finset.mem_image.mpr ⟨2, Finset.mem_univ _, rfl⟩)
    have hex := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl) (V2 m c) (fun b => W3 m c b)
      ((pdats m 1 c).arrAt · cfg1.N) hF hrest
    rw [Pipeline.unscopedBufs_held] at hex
    iintro ⟨Ha, ⟨%W, -, HO⟩, HY, HZ⟩
    ihave Hh := hex $$ [Ha HZ]
    · isplitl [Ha]; · iexact Ha
      iexact HZ
    imodintro
    isplitl [Hh]; · iexact Hh
    isplitl [HY]; · iexact HY
    iexists W; iexact HO

end Cert.KernelIdeal.MainRun

end
-- ==== Proof.MainRun.lean ====
/-
  The whole run of @main: reshape the tokens per expert, the gate/up projection, the down projection, reshape the
  result back. One launch over the four items gives, for every weakly fair execution, termination without a fault
  and a final memory holding every unscoped buffer at the contents named for the last boundary.
  Stated at any float instance: the same text serves the word-level program and the idealized one.
-/
import proofs.«146660_j9483287789704_1_alg».proof.Proof.Gen.KernelIdeal.Launch
import proofs.«146660_j9483287789704_1_alg».proof.Proof.Gen.KernelIdeal.Skeleton
import proofs.«146660_j9483287789704_1_alg».proof.Proof.Gen.KernelIdeal.Points
import proofs.«146660_j9483287789704_1_alg».proof.Proof.Boundaries
import proofs.«146660_j9483287789704_1_alg».proof.Proof.GateUpSeg
import proofs.«146660_j9483287789704_1_alg».proof.Proof.DownSeg
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.MainRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- A host stretch as an item over the unscoped buffers from contents `W`, `R` riding along. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- @main's four items in order. -/
abbrev segs : List (Pipeline.Seg (pcfgs (F := F)) adm (pdats m) () defs₀ 𝒱₀ L lv) :=
  [ .host (hostSeg hostOps0 hostOps0_sub hostOps0_fresh (W0 m)),
    .region (gateUpSeg m),
    .region (downSeg m),
    .host (hostSeg hostOps2 hostOps2_sub hostOps2_fresh (W3 m)) ]

theorem main_run (c : Dev nD) : main (F := F) c = Pipeline.Seg.run (segs m) := (main_chain c).trans (by chain_rfl)

set_option backward.isDefEq.respectTransparency.types false in
/-- THE RUN: from any memory with zero counters every weakly fair execution of @main terminates, nothing faulting,
    in a memory that holds every unscoped buffer of every core at `W4`. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W4 m c b) := by
  refine Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := ?launch)
    (T₀ := heldAt (W0 m))
    (Tₙ := fun c => iprop(StableHlo.held (c : Thread nD τ) (Pipeline.ucRefs τ sig) (W4 m c) ∗ ∃ r, prngReg c r))
    (hch := ⟨fun _ => .rfl, fun _ => .rfl, fun _ => .rfl, fun _ => .rfl, fun c => ?last⟩)
    (hinit := ?init)
    (QY := fun c s => ∀ b ∈ Pipeline.ucRefs τ sig, s.mem (((c : Thread nD τ)).1, b) = W4 m c b)
    (hfin := fun c s' => ?fin) (hQ := fun _ h => h)
  case launch =>
    -- the launch element is the pipelines' own; no further ghost resource is dealt
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  case last =>
    -- the last item leaves the buffers, the register and the (empty) debt; regroup
    show iprop(StableHlo.held (c : Thread nD τ) (Pipeline.ucRefs τ sig) (W4 m c) ∗ R (F := F) c) ⊢ _
    iintro ⟨Hh, Hp, HO⟩
    isplitl [Hh Hp]
    · isplitl [Hh]; · iexact Hh
      iexact Hp
    iexact HO
  case init =>
    -- every core starts holding its unscoped buffers at the launch memory, its register, and owing nothing
    refine Pipeline.initEach L lv fun c => ?_
    rw [show unscopedBufs c (fun b => m ((c : Thread nD τ).loc b)) = StableHlo.held (c : Thread nD τ) (Pipeline.ucRefs τ sig) (W0 m c)
      from Pipeline.unscopedBufs_held c (W0 m c)]
    iintro ⟨⟨Hh, -, HO, -, Hp, -⟩, -⟩
    imodintro
    isplitl [Hh]; · iexact Hh
    isplitl [Hp]; · iexists _; iexact Hp
    iexists ∅; iexact HO
  case fin =>
    -- the buffers held at the last contents are what the final memory holds
    iintro ⟨⟨Hh, -⟩, HSI⟩
    unfold StableHlo.held
    imodintro
    iapply (pointsTo_read_all (Pipeline.ucRefs τ sig) (fun b => (((c : Thread nD τ)).1, b)) (W4 m c) s')
    isplitl [Hh] <;> iassumption

end Cert.KernelIdeal.MainRun

end
-- ==== Proof.Frame.lean ====
/-
  The frame claim, read off the run. A buffer that no host stretch writes and that is neither region's output holds
  at the end what it held at launch; the three arguments are such buffers. So every weakly fair execution of @main
  terminates, nothing faulting, with the arguments unchanged.
  Stated at any float instance: the same text serves the word-level program and the idealized one.
-/
import proofs.«146660_j9483287789704_1_alg».proof.Proof.Gen.KernelIdeal.Launch
import proofs.«146660_j9483287789704_1_alg».proof.Proof.Gen.KernelIdeal.Skeleton
import proofs.«146660_j9483287789704_1_alg».proof.Proof.Gen.KernelIdeal.Points
import proofs.«146660_j9483287789704_1_alg».proof.Proof.MainRun
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.MainRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- A buffer neither reshape writes and that is neither region's output ends at its launch contents. -/
theorem W4_of_unwritten (c : Dev nD) (r : Ref sig .tc) (h0 : r ∉ hostOps0_W) (h1 : r ≠ main_v1) (h2 : r ≠ main_v2)
    (h3 : r ∉ hostOps2_W) : W4 m c r = m ((c : Thread nD τ).loc r) := by
  have e3 : W4 m c r = W3 m c r := StableHlo.after_of_writes_sub hostOps2 _ hostOps2_writes h3
  have e2 : W3 m c r = W2 m c r := by
    unfold W3; exact Function.update_of_ne (StableHlo.devRef_ne_of_ne h2 : (Proc.devRef .tc r : DevRef τ sig) ≠ Proc.devRef .tc main_v2) _ _
  have e1 : W2 m c r = W1 m c r := by
    unfold W2; exact Function.update_of_ne (StableHlo.devRef_ne_of_ne h1 : (Proc.devRef .tc r : DevRef τ sig) ≠ Proc.devRef .tc main_v1) _ _
  have e0 : W1 m c r = W0 m c r := StableHlo.after_of_writes_sub hostOps0 _ hostOps0_writes h0
  exact e3.trans (e2.trans (e1.trans (e0.trans rfl)))

/-- An unscoped TensorCore buffer is among those the run reads back. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: every weakly fair execution terminates, nothing faulting, with the three arguments as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W4_of_unwritten m c main_arg0 (by decide) (by decide) (by decide) (by decide)),
     (h c _ (mem_uc main_arg1 (by decide))).trans (W4_of_unwritten m c main_arg1 (by decide) (by decide) (by decide) (by decide)),
     (h c _ (mem_uc main_arg2 (by decide))).trans (W4_of_unwritten m c main_arg2 (by decide) (by decide) (by decide) (by decide))⟩)
    (run_all m ρ)

end Cert.KernelIdeal.MainRun

end
-- ==== Proof.Spec.lean ====
/-
  The layer as mathematics, over the extended reals. With x the tokens grouped by expert, W the gate/up weights
  and D the down weights:
    proj x W e t n   = Σ_h x[e,t,h] · W[e,h,n]                      (n < 8192: gate columns, then up columns)
    gated x W [e,t,n] = proj … (n + 4096) · (proj … n · logistic (proj … n))      (n < 4096)
    down a D [e,t,h]  = Σ_i a[e,t,i] · D[e,i,h]                     (i < 4096)
  and the layer's result is down (gated x W) D, up to the two reshapes around it. Also the one law the kernel's
  tiling needs: a sum over 4096 indices is the sum over 8 tiles of the sums over the 512 indices of each tile.
-/
import Idealize.ShloMosaic.PureOps.Ideal
import Idealize.ShloMosaic.PureOps.Ideal.Laws
import Idealize.ShloMosaic.Lib.ValueIdx
import Mathlib.Algebra.BigOperators.Fin
import Mathlib.Logic.Equiv.Fin.Basic

noncomputable section

namespace Cert.Swiglu

open Idealize.ShloMosaic Idealize.ShloMosaic.ValueIdx

/-- One entry of tokens · weights for expert `e`: token `t` against weight column `n`. -/
def proj (x : (⟨3, ![8, 1024, 2048]⟩ : Shape).Idx → EReal) (w : (⟨3, ![8, 2048, 8192]⟩ : Shape).Idx → EReal)
    (e : Fin 8) (t : Fin 1024) (n : Fin 8192) : EReal :=
  ∑ h : Fin 2048, x (ix3 e t h) * w (ix3 e h n)

/-- The gated activations: up · (gate · logistic gate), gate from weight column n, up from column n + 4096. -/
def gated (x : (⟨3, ![8, 1024, 2048]⟩ : Shape).Idx → EReal) (w : (⟨3, ![8, 2048, 8192]⟩ : Shape).Idx → EReal) :
    (⟨3, ![8, 1024, 4096]⟩ : Shape).Idx → EReal := fun j =>
  proj x w (j 0) (j 1) ⟨(j 2).val + 4096, by have := (j 2).isLt; simp only [Matrix.cons_val_two, Matrix.tail_cons, Matrix.head_cons] at this ⊢; omega⟩
    * (proj x w (j 0) (j 1) ⟨(j 2).val, by have := (j 2).isLt; simp only [Matrix.cons_val_two, Matrix.tail_cons, Matrix.head_cons] at this ⊢; omega⟩
      * Ideal.logistic (proj x w (j 0) (j 1) ⟨(j 2).val, by have := (j 2).isLt; simp only [Matrix.cons_val_two, Matrix.tail_cons, Matrix.head_cons] at this ⊢; omega⟩))

/-- The down projection: activations · down weights, per expert. -/
def down (a : (⟨3, ![8, 1024, 4096]⟩ : Shape).Idx → EReal) (d : (⟨3, ![8, 4096, 2048]⟩ : Shape).Idx → EReal) :
    (⟨3, ![8, 1024, 2048]⟩ : Shape).Idx → EReal := fun j =>
  ∑ i : Fin 4096, a (ix3 (j 0) (j 1) i) * d (ix3 (j 0) i (j 2))

/-- A sum over 4096 indices, tile by tile: eight tiles of 512. (Addition of extended reals is commutative and
    associative, so no finiteness is needed.) -/
theorem sum_tiles (f : Fin 4096 → EReal) :
    ∑ i : Fin 4096, f i = ∑ k : Fin 8, ∑ j : Fin 512, f ⟨512 * k.val + j.val, by have := k.isLt; have := j.isLt; omega⟩ := by
  -- the pair (tile k, place j inside it) ↦ j + 512·k is a bijection of Fin 8 × Fin 512 with the 4096 indices;
  -- a sum is unchanged along a bijection, and a sum over pairs is the double sum
  have h := Equiv.sum_comp (finProdFinEquiv : Fin 8 × Fin 512 ≃ Fin (8 * 512)) (fun i : Fin (8 * 512) => f i)
  refine h.symm.trans ?_
  rw [Fintype.sum_prod_type]
  refine Finset.sum_congr rfl fun k _ => Finset.sum_congr rfl fun j _ => congrArg f (Fin.ext ?_)
  show j.val + 512 * k.val = 512 * k.val + j.val
  omega

end Cert.Swiglu

end
-- ==== Proof.LibPlainDot.lean ====
/-
  A matrix product read at an entry.

  For the dimension numbers of the plain product of an M × K matrix with a K × N matrix (contract the left
  operand's second axis against the right operand's first, no batch axis) the sum over the product's contraction
  index is the familiar sum over `k : Fin K` of `l (a, k) · r (k, b)`. Stated for ANY record with those dimension
  numbers, so one lemma serves every such product of a program whatever the three extents; the forms for a
  `tpu.matmul` into a zero accumulator and for the host's `dot_general` at the ideal values follow.
-/
import Idealize.ShloMosaic.PureOps.Ideal.Laws
import Idealize.ShloMosaic.Lib.ValueIdx

noncomputable section

namespace Cert.LibPlainDot

open Idealize.ShloMosaic Idealize.ShloMosaic.ValueIdx

variable {M K N : Nat}

/-- The plain product's sum over its contraction index is the sum over `k : Fin K` of `l (a, k) * r (k, b)`. -/
theorem dot_sum (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (a : Fin M) (b : Fin N) :
    ∑ k : d.contr.Idx, l (d.lhsIdx (ix2 a b) k) * r (d.rhsIdx (ix2 a b) k) = ∑ k : Fin K, l (ix2 a k) * r (ix2 k b) := by
  obtain ⟨lc, rc, ln, rn, lb, rb, wf⟩ := d
  dsimp only at hlc hrc hln hrn hlb hrb
  subst hlc hrc hln hrn hlb hrb
  generalize hd : (⟨[1], [0], [0], [1], [], [], wf⟩ : DotDims ⟨2, ![M, K]⟩ ⟨2, ![K, N]⟩ ⟨2, ![M, N]⟩) = d
  have hlc : d.lhsContracting = [1] := by rw [← hd]
  have hrc : d.rhsContracting = [0] := by rw [← hd]
  have hr : d.contr.rank = 1 := by rw [← hd]; rfl
  have hs : d.contr.size ⟨0, by omega⟩ = K := by subst hd; rfl
  have l0 : ∀ q : d.contr.Idx, (d.lhsIdx (ix2 a b) q 0).val = a.val := by
    subst hd; intro q
    unfold DotDims.lhsIdx
    rw [dif_neg (show ¬ (0 : Fin 2) ∈ ([] : List (Fin 2)) from List.not_mem_nil),
      dif_pos (show (0 : Fin 2) ∈ ([0] : List (Fin 2)) from List.mem_singleton.mpr rfl)]
    rfl
  have r1 : ∀ q : d.contr.Idx, (d.rhsIdx (ix2 a b) q 1).val = b.val := by
    subst hd; intro q
    unfold DotDims.rhsIdx
    rw [dif_neg (show ¬ (1 : Fin 2) ∈ ([] : List (Fin 2)) from List.not_mem_nil),
      dif_pos (show (1 : Fin 2) ∈ ([1] : List (Fin 2)) from List.mem_singleton.mpr rfl)]
    rfl
  rw [← Equiv.sum_comp (contrEquiv1 d K hr hs).symm]
  refine Finset.sum_congr rfl fun k _ => ?_
  have hk := contrEquiv1_symm_val d K hr hs k
  have el : d.lhsIdx (ix2 a b) ((contrEquiv1 d K hr hs).symm k) = ix2 a k := funext fun ax => Fin.ext (by
    match ax with
    | ⟨0, _⟩ => exact l0 _
    | ⟨1, _⟩ => exact (d.lhsIdx_val_of_single hlc _ _).trans hk)
  have er : d.rhsIdx (ix2 a b) ((contrEquiv1 d K hr hs).symm k) = ix2 k b := funext fun ax => Fin.ext (by
    match ax with
    | ⟨0, _⟩ => exact (d.rhsIdx_val_of_single hrc _ _).trans hk
    | ⟨1, _⟩ => exact r1 _)
  rw [el, er]

/-- A `tpu.matmul` of the plain dimension numbers into the zero accumulator, at the ideal values, at entry (a, b). -/
theorem matmul_zero_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (dot_sum d hlc hrc hln hrn hlb hrb l r a b)

/-- The host's `dot_general` of the plain dimension numbers, at the ideal values, at entry (a, b). -/
theorem dotGeneral_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (dot_sum d hlc hrc hln hrn hlb hrb l r a b)

end Cert.LibPlainDot

end
-- ==== Proof.GateUpValue.lean ====
/-
  What the gate/up projection leaves in the gated-activations array, over the extended reals: every (expert,
  column tile) block is written once, with up · (gate · logistic gate) of that expert's tokens against that
  tile's gate and up weight columns, and the 64 blocks tile the array; so the array ends as `Swiglu.gated` of
  the token array and the weight array as the region found them.
-/
import proofs.«146660_j9483287789704_1_alg».proof.Proof.GateUp
import proofs.«146660_j9483287789704_1_alg».proof.Proof.Spec
import proofs.«146660_j9483287789704_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.GateUp

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## The three input blocks at a point, and the two arrays they are blocks of -/

/-- Expert e's token block at point t. -/
abbrev xblk (c : Dev nD) (t : Fin cfg0.N) : Vec Ideal S1x1024x2048 .f32 := blk V c 0 t
/-- The gate weight tile at point t. -/
abbrev gblk (c : Dev nD) (t : Fin cfg0.N) : Vec Ideal S1x2048x512 .f32 := blk V c 1 t
/-- The up weight tile at point t. -/
abbrev ublk (c : Dev nD) (t : Fin cfg0.N) : Vec Ideal S1x2048x512 .f32 := blk V c 2 t
/-- The token array as the region finds it. -/
abbrev xarr (c : Dev nD) : S8x1024x2048.Idx → EReal := V c main_v0
/-- The gate/up weight array as the region finds it. -/
abbrev warr (c : Dev nD) : S8x2048x8192.Idx → EReal := V c main_arg1

/-! ## Layout: dropping and adding the block's leading unit axis -/

/-- A [1, A, B] block viewed [A, B] reads (0, a, b) at (a, b). -/
theorem dropUnit_apply {α : Type} {A B : Nat} (v : (⟨3, ![1, A, B]⟩ : Shape).Idx → α)
    (h : (⟨3, ![1, A, B]⟩ : Shape).ShapeCasts ⟨2, ![A, B]⟩) (a : Fin A) (b : Fin B) :
    shapeCast ⟨2, ![A, B]⟩ v h (ix2 a b) = v (ix3 (0 : Fin 1) a b) := by
  refine (shapeCast_dropUnit_apply ![A, B] v h (ix2 a b)).trans (congrArg v ?_)
  funext d
  match d with
  | ⟨0, _⟩ => rfl
  | ⟨1, _⟩ => rfl
  | ⟨2, _⟩ => rfl

/-- An [A, B] value stored as a [1, A, B] block reads (a, b) at (0, a, b). -/
theorem addUnit_apply {α : Type} {A B : Nat} (v : (⟨2, ![A, B]⟩ : Shape).Idx → α)
    (h : (⟨2, ![A, B]⟩ : Shape).ShapeCasts ⟨3, ![1, A, B]⟩) (a : Fin A) (b : Fin B) :
    shapeCast ⟨3, ![1, A, B]⟩ v h (ix3 (0 : Fin 1) a b) = v (ix2 a b) := by
  refine (shapeCast_addUnit_apply ![A, B] v h (ix3 (0 : Fin 1) a b)).trans (congrArg v ?_)
  funext d
  match d with
  | ⟨0, _⟩ => rfl
  | ⟨1, _⟩ => rfl

/-! ## The stored tile at an entry -/

/-- Entry (r, q) of the gated tile: up · (gate · logistic gate), gate and up the two sums over the 2048 hidden
    coordinates (rounding to bf16 is the identity on the extended reals; each product starts from zero). -/
theorem gatedTile_apply (x : Vec Ideal S1x1024x2048 .f32) (g u : Vec Ideal S1x2048x512 .f32) (r : Fin 1024) (q : Fin 512) :
    gatedTile x g u (ix3 (0 : Fin 1) r q)
      = (∑ h : Fin 2048, x (ix3 0 r h) * u (ix3 0 h q))
        * ((∑ h : Fin 2048, x (ix3 0 r h) * g (ix3 0 h q)) * Ideal.logistic (∑ h : Fin 2048, x (ix3 0 r h) * g (ix3 0 h q))) := by
  unfold gatedTile k0_pay1
  refine (addUnit_apply _ _ r q).trans ?_
  have hmm : ∀ w : Vec Ideal S1x2048x512 .f32,
      matmul dot_S1024x2048_S2048x512_S1024x512_1_0_0_1_n_n none
          (truncf .bf16 (shapeCast S1024x2048 x shapeCasts_S1x1024x2048_S1024x2048) bitsLt_bf16_f32)
          (truncf .bf16 (shapeCast S2048x512 w shapeCasts_S1x2048x512_S2048x512) bitsLt_bf16_f32)
          (constant (F := Ideal) S1024x512 .f32 0x00000000#32) (ix2 r q)
        = ∑ h : Fin 2048, x (ix3 0 r h) * w (ix3 0 h q) := fun w =>
    (LibPlainDot.matmul_zero_apply dot_S1024x2048_S2048x512_S1024x512_1_0_0_1_n_n rfl rfl rfl rfl rfl rfl none _ _ r q).trans
      (Finset.sum_congr rfl fun h _ => congrArg₂ (· * ·) (dropUnit_apply x _ r h) (dropUnit_apply w _ h q))
  exact congrArg₂ (· * ·) (hmm u) (congrArg₂ (fun a b => a * Ideal.logistic b) (hmm g) (hmm g))

/-! ## Where the windows put their blocks -/

/-- The four windows' block indices at grid point t = 8 e + n (e the expert, n the column tile): every window is
    on expert e = t / 8; the gate tile and the output tile are column tile n = t % 8, the up tile is n + 8.
    Decided over the 64 points. -/
theorem idx_facts : ∀ t : Fin cfg0.N,
    (win0_0.index t (0 : Fin 3) = t.val / 8 ∧ win0_0.index t (1 : Fin 3) = 0 ∧ win0_0.index t (2 : Fin 3) = 0)
    ∧ (win0_1.index t (0 : Fin 3) = t.val / 8 ∧ win0_1.index t (1 : Fin 3) = 0 ∧ win0_1.index t (2 : Fin 3) = t.val % 8)
    ∧ (win0_2.index t (0 : Fin 3) = t.val / 8 ∧ win0_2.index t (1 : Fin 3) = 0 ∧ win0_2.index t (2 : Fin 3) = t.val % 8 + 8)
    ∧ (win0_3.index t (0 : Fin 3) = t.val / 8 ∧ win0_3.index t (1 : Fin 3) = 0 ∧ win0_3.index t (2 : Fin 3) = t.val % 8) :=
  (by decide +kernel : ∀ t : Fin grid0.N, _)

/-- The token block at point t is expert (t / 8)'s rows of the token array. -/
theorem xblk_apply (c : Dev nD) (t : Fin cfg0.N) (e : Fin 8) (he : e.val = t.val / 8) (r : Fin 1024) (h : Fin 2048) :
    xblk V c t (ix3 (0 : Fin 1) r h) = xarr V c (ix3 e r h) := by
  obtain ⟨⟨h0, h1, h2⟩, -⟩ := idx_facts t
  unfold xblk xarr blk
  rw [View.read_apply]
  show V c main_v0 _ = V c main_v0 _
  congr 1
  funext a
  apply Fin.ext
  match a with
  | ⟨0, _⟩ => show win0_0.index t 0 * 1 + 1 * 0 = e.val; rw [h0, he]; omega
  | ⟨1, _⟩ => show win0_0.index t 1 * 1024 + 1 * r.val = r.val; rw [h1]; omega
  | ⟨2, _⟩ => show win0_0.index t 2 * 2048 + 1 * h.val = h.val; rw [h2]; omega

/-- The gate tile at point t is columns 512 (t % 8) … of expert (t / 8)'s weights. -/
theorem gblk_apply (c : Dev nD) (t : Fin cfg0.N) (e : Fin 8) (he : e.val = t.val / 8) (h : Fin 2048) (q : Fin 512)
    (n : Fin 8192) (hn : n.val = 512 * (t.val % 8) + q.val) :
    gblk V c t (ix3 (0 : Fin 1) h q) = warr V c (ix3 e h n) := by
  obtain ⟨-, ⟨h0, h1, h2⟩, -⟩ := idx_facts t
  unfold gblk warr blk
  rw [View.read_apply]
  show V c main_arg1 _ = V c main_arg1 _
  congr 1
  funext a
  apply Fin.ext
  match a with
  | ⟨0, _⟩ => show win0_1.index t 0 * 1 + 1 * 0 = e.val; rw [h0, he]; omega
  | ⟨1, _⟩ => show win0_1.index t 1 * 2048 + 1 * h.val = h.val; rw [h1]; omega
  | ⟨2, _⟩ => show win0_1.index t 2 * 512 + 1 * q.val = n.val; rw [h2, hn]; omega

/-- The up tile at point t is columns 4096 + 512 (t % 8) … of expert (t / 8)'s weights. -/
theorem ublk_apply (c : Dev nD) (t : Fin cfg0.N) (e : Fin 8) (he : e.val = t.val / 8) (h : Fin 2048) (q : Fin 512)
    (n : Fin 8192) (hn : n.val = 512 * (t.val % 8) + q.val + 4096) :
    ublk V c t (ix3 (0 : Fin 1) h q) = warr V c (ix3 e h n) := by
  obtain ⟨-, -, ⟨h0, h1, h2⟩, -⟩ := idx_facts t
  unfold ublk warr blk
  rw [View.read_apply]
  show V c main_arg1 _ = V c main_arg1 _
  congr 1
  funext a
  apply Fin.ext
  match a with
  | ⟨0, _⟩ => show win0_2.index t 0 * 1 + 1 * 0 = e.val; rw [h0, he]; omega
  | ⟨1, _⟩ => show win0_2.index t 1 * 2048 + 1 * h.val = h.val; rw [h1]; omega
  | ⟨2, _⟩ => show win0_2.index t 2 * 512 + 1 * q.val = n.val; rw [h2, hn]; omega

/-! ## One point's tile is its block of the gated array -/

/-- The gated array at an index whose coordinates are known. -/
theorem gated_at (x : S8x1024x2048.Idx → EReal) (w : S8x2048x8192.Idx → EReal) (k : S8x1024x4096.Idx)
    (e : Fin 8) (r : Fin 1024) (ng nu : Fin 8192)
    (he : (k 0).val = e.val) (hr : (k 1).val = r.val) (hg : ng.val = (k 2).val) (hu : nu.val = (k 2).val + 4096) :
    Cert.Swiglu.gated x w k
      = Cert.Swiglu.proj x w e r nu * (Cert.Swiglu.proj x w e r ng * Ideal.logistic (Cert.Swiglu.proj x w e r ng)) := by
  have e0 : k 0 = e := Fin.ext he
  have e1 : k 1 = r := Fin.ext hr
  unfold Cert.Swiglu.gated
  rw [e0, e1]
  have eg : (⟨(k 2).val, by have := (k 2).isLt; simp only [Matrix.cons_val_two, Matrix.tail_cons, Matrix.head_cons] at this ⊢; omega⟩ : Fin 8192) = ng := Fin.ext hg.symm
  have eu : (⟨(k 2).val + 4096, by have := (k 2).isLt; simp only [Matrix.cons_val_two, Matrix.tail_cons, Matrix.head_cons] at this ⊢; omega⟩ : Fin 8192) = nu := Fin.ext hu.symm
  rw [eg, eu]

/-- What point t stores at (r, q) is the gated array at (t / 8, r, 512 (t % 8) + q). -/
theorem tile_eq (c : Dev nD) (t : Fin cfg0.N) (r : Fin 1024) (q : Fin 512) (k : S8x1024x4096.Idx)
    (hk0 : (k 0).val = t.val / 8) (hk1 : (k 1).val = r.val) (hk2 : (k 2).val = 512 * (t.val % 8) + q.val) :
    gatedTile (xblk V c t) (gblk V c t) (ublk V c t) (ix3 (0 : Fin 1) r q)
      = Cert.Swiglu.gated (xarr V c) (warr V c) k := by
  have ht : t.val < 64 := t.isLt
  have hq := q.isLt
  let e : Fin 8 := ⟨t.val / 8, by omega⟩
  let ng : Fin 8192 := ⟨512 * (t.val % 8) + q.val, by omega⟩
  let nu : Fin 8192 := ⟨512 * (t.val % 8) + q.val + 4096, by omega⟩
  refine (gatedTile_apply _ _ _ r q).trans ?_
  refine ((gated_at (xarr V c) (warr V c) k e r ng nu hk0 hk1 hk2.symm (by show _ = _; rw [hk2])).trans ?_).symm
  unfold Cert.Swiglu.proj
  have hu : ∑ h : Fin 2048, xarr V c (ix3 e r h) * warr V c (ix3 e h nu) = ∑ h : Fin 2048, xblk V c t (ix3 0 r h) * ublk V c t (ix3 0 h q) :=
    Finset.sum_congr rfl fun h _ => (congrArg₂ (· * ·) (xblk_apply V c t e rfl r h) (ublk_apply V c t e rfl h q nu rfl)).symm
  have hg : ∑ h : Fin 2048, xarr V c (ix3 e r h) * warr V c (ix3 e h ng) = ∑ h : Fin 2048, xblk V c t (ix3 0 r h) * gblk V c t (ix3 0 h q) :=
    Finset.sum_congr rfl fun h _ => (congrArg₂ (· * ·) (xblk_apply V c t e rfl r h) (gblk_apply V c t e rfl h q ng rfl)).symm
  rw [hu, hg]

/-- Point t's stored tile, entry by entry, is block t of the gated array. -/
theorem tile_read (c : Dev nD) (t : Fin cfg0.N) (y : S1x1024x512.Idx) :
    gatedTile (xblk V c t) (gblk V c t) (ublk V c t) y
      = (((cfg0.win 3).blk t).view.read (Elt Ideal) (Cert.Swiglu.gated (V c main_v0) (V c main_arg1))
          : S1x1024x512.Idx → EReal) y := by
  have hy0 : (y 0 : Fin 1) = (0 : Fin 1) := Fin.ext (by
    have h : (y 0 : Fin 1).val < 1 := (y 0).isLt
    show (y 0 : Fin 1).val = 0
    omega)
  obtain ⟨r, q, rfl⟩ : ∃ (r : Fin 1024) (q : Fin 512), y = ix3 (0 : Fin 1) r q :=
    ⟨y 1, y 2, (eq_ix3 y).trans (congrArg (fun z : Fin 1 => ix3 z (y 1) (y 2)) hy0)⟩
  obtain ⟨-, -, -, ⟨h0, h1, h2⟩⟩ := idx_facts t
  rw [View.read_apply]
  refine tile_eq V c t r q _ ?_ ?_ ?_
  · show win0_3.index t 0 * 1 + 1 * 0 = t.val / 8
    rw [h0]; omega
  · show win0_3.index t 1 * 1024 + 1 * r.val = r.val
    rw [h1]; omega
  · show win0_3.index t 2 * 512 + 1 * q.val = 512 * (t.val % 8) + q.val
    rw [h2]; omega

/-- What the write-back at point t writes is block t of the gated array (the window is never cut). -/
theorem flushed_eq (c : Dev nD) (t : Fin cfg0.N) :
    (dat (F := Ideal) V c).flushed 3 t
      = ((cfg0.win 3).blk t).view.read (Elt Ideal) (Cert.Swiglu.gated (V c main_v0) (V c main_arg1)) := by
  show (cfg0.win 3).cut (grid0.coords t) ((dat (F := Ideal) V c).after 3 t) = _
  rw [after_3]
  funext y
  exact tile_read V c t y

/-- Every index (e, r, i) of the gated array lies in the block of point 8 e + i / 512. -/
theorem cover (c : Dev nD) (i : ((cfg0.win 3).arr.view.loc (c.tc : Thread nD τ)).2.ty.Idx) :
    ∃ t : Fin cfg0.N, (cfg0.win 3).flush t = true ∧ i ∈ ((cfg0.win 3).blk t).view.set := by
  have b0 : (i 0 : Nat) < 8 := (i 0).isLt
  have b1 : (i 1 : Nat) < 1024 := (i 1).isLt
  have b2 : (i 2 : Nat) < 4096 := (i 2).isLt
  have hN : cfg0.N = 64 := rfl
  obtain ⟨t, ht⟩ : ∃ t : Fin cfg0.N, t.val = 8 * (i 0 : Nat) + (i 2 : Nat) / 512 :=
    ⟨⟨8 * (i 0 : Nat) + (i 2 : Nat) / 512, by rw [hN]; omega⟩, rfl⟩
  refine ⟨t, flush0_3 t, ?_⟩
  obtain ⟨-, -, -, ⟨h0, h1, h2⟩⟩ := idx_facts t
  show i ∈ ((View.whole main_v1).slice (win0_3.rect t)).set
  rw [View.set_slice_whole, Rect.mem_set_unit]
  intro a
  match a with
  | ⟨0, _⟩ =>
    show win0_3.index t 0 * 1 ≤ (i 0 : Nat) ∧ (i 0 : Nat) < win0_3.index t 0 * 1 + 1
    rw [h0, ht]; omega
  | ⟨1, _⟩ =>
    show win0_3.index t 1 * 1024 ≤ (i 1 : Nat) ∧ (i 1 : Nat) < win0_3.index t 1 * 1024 + 1024
    rw [h1]; omega
  | ⟨2, _⟩ =>
    show win0_3.index t 2 * 512 ≤ (i 2 : Nat) ∧ (i 2 : Nat) < win0_3.index t 2 * 512 + 512
    rw [h2, ht]; omega

/-- After the region the gated-activations array is `Swiglu.gated` of the tokens and the gate/up weights. -/
theorem gated_array (c : Dev nD) :
    (dat (F := Ideal) V c).arrAt 3 cfg0.N = Cert.Swiglu.gated (V c main_v0) (V c main_arg1) :=
  (dat (F := Ideal) V c).arrAt_eq_of_cover 3 (Cert.Swiglu.gated (V c main_v0) (V c main_arg1))
    (fun t _ => flushed_eq V c t) (cover c)

end Cert.KernelIdeal.GateUp

end
-- ==== Proof.DownValue.lean ====
/-
  What the down projection leaves in the per-expert result array, over the extended reals: after the k-th tile of
  expert e the accumulator holds the sum over the first k+1 tiles of (gated tile) · (weight tile), zero included as
  the start; the block written at the last tile is therefore the sum over all eight tiles, which is the sum over the
  whole 4096-long contraction; the eight written blocks tile the array, so it ends as `Swiglu.down` of the gated
  activations and the down weights as the region found them.
-/
import proofs.«146660_j9483287789704_1_alg».proof.Proof.Down
import proofs.«146660_j9483287789704_1_alg».proof.Proof.Spec
import proofs.«146660_j9483287789704_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Down

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The gated activations as the region finds them, as a function of (expert, token, hidden index). -/
abbrev actArr (c : Dev nD) : (⟨3, ![8, 1024, 4096]⟩ : Shape).Idx → EReal := V c main_v1

/-- The down weights as the region finds them, as a function of (expert, hidden index, output column). -/
abbrev wgtArr (c : Dev nD) : (⟨3, ![8, 4096, 2048]⟩ : Shape).Idx → EReal := V c main_arg2

/-- The zeroed accumulator reads zero everywhere. -/
theorem zeroAcc_apply (r : Fin 1024) (h : Fin 2048) : (zeroAcc (F := Ideal)) (ix2 r h) = 0 := by
  unfold zeroAcc k1_pay1
  rw [shapeCast_self]
  show Ideal.ofBits .f32 0x00000000#32 = 0
  exact Ideal.ofBits_zero_f32

/-- One tile's step at an entry: the accumulator's entry plus the tile's 512-long inner product. -/
theorem stepAcc_apply (g : Vec Ideal S1x1024x512 .bf16) (d : Vec Ideal S1x512x2048 .f32) (a : Vec Ideal S1024x2048 .f32)
    (r : Fin 1024) (h : Fin 2048) :
    stepAcc g d a (ix2 r h) = a (ix2 r h) + ∑ j : Fin 512, g (ix3 (0 : Fin 1) r j) * d (ix3 (0 : Fin 1) j h) := by
  unfold stepAcc k1_pay2
  rw [shapeCast_self]
  refine (addf_apply _ _ _).trans ?_
  refine congrArg (a (ix2 r h) + ·) ?_
  refine (Cert.LibPlainDot.matmul_zero_apply dot_S1024x512_S512x2048_S1024x2048_1_0_0_1_n_n rfl rfl rfl rfl rfl rfl none _ _ r h).trans ?_
  refine Finset.sum_congr rfl fun j _ => ?_
  -- the two casts that drop the blocks' unit axis read (0, ·, ·); narrowing the weights' format changes no value
  have eg : shapeCast S1024x512 g shapeCasts_S1x1024x512_S1024x512 (ix2 r j) = g (ix3 (0 : Fin 1) r j) :=
    (shapeCast_dropUnit_apply ![1024, 512] g shapeCasts_S1x1024x512_S1024x512 (ix2 r j)).trans
      (congrArg g (funext fun a => by match a with | ⟨0, _⟩ => rfl | ⟨1, _⟩ => rfl | ⟨2, _⟩ => rfl))
  have ed : shapeCast S512x2048 d shapeCasts_S1x512x2048_S512x2048 (ix2 j h) = d (ix3 (0 : Fin 1) j h) :=
    (shapeCast_dropUnit_apply ![512, 2048] d shapeCasts_S1x512x2048_S512x2048 (ix2 j h)).trans
      (congrArg d (funext fun a => by match a with | ⟨0, _⟩ => rfl | ⟨1, _⟩ => rfl | ⟨2, _⟩ => rfl))
  rw [eg]
  exact congrArg (g (ix3 (0 : Fin 1) r j) * ·)
    ((truncf_apply (ψ := .bf16) (shapeCast S512x2048 d shapeCasts_S1x512x2048_S512x2048) bitsLt_bf16_f32 (ix2 j h)).trans ed)

/-- The index maps of the three windows at every grid point: point t is (expert t / 8, tile t % 8). -/
theorem idx_facts : ∀ t : Fin cfg1.N,
    win1_0.index t (0 : Fin 3) = t.val / 8 ∧ win1_0.index t (1 : Fin 3) = 0 ∧ win1_0.index t (2 : Fin 3) = t.val % 8
    ∧ win1_1.index t (0 : Fin 3) = t.val / 8 ∧ win1_1.index t (1 : Fin 3) = t.val % 8 ∧ win1_1.index t (2 : Fin 3) = 0
    ∧ win1_2.index t (0 : Fin 3) = t.val / 8 ∧ win1_2.index t (1 : Fin 3) = 0 ∧ win1_2.index t (2 : Fin 3) = 0 :=
  (by decide +kernel : ∀ t : Fin grid1.N, _)

/-- The activations' block at the point of expert e, tile k: token r, place j is the array at (e, r, 512 k + j). -/
theorem blk0_apply (c : Dev nD) (t : Fin cfg1.N) (e : Fin 8) (k : ℕ) (hk : k < 8) (ht : t.val = 8 * e.val + k)
    (r : Fin 1024) (j : Fin 512) :
    (blk V c 0 t : Vec Ideal S1x1024x512 .bf16) (ix3 (0 : Fin 1) r j)
      = actArr V c (ix3 e r ⟨512 * k + j.val, by have := j.isLt; omega⟩) := by
  obtain ⟨e0, e1, e2, -⟩ := idx_facts t
  unfold blk
  rw [View.read_apply]
  show V c main_v1 _ = V c main_v1 _
  congr 1
  funext a
  apply Fin.ext
  match a with
  | ⟨0, _⟩ => show win1_0.index t (0 : Fin 3) * 1 + 1 * 0 = e.val; rw [e0, ht]; omega
  | ⟨1, _⟩ => show win1_0.index t (1 : Fin 3) * 1024 + 1 * r.val = r.val; rw [e1]; omega
  | ⟨2, _⟩ => show win1_0.index t (2 : Fin 3) * 512 + 1 * j.val = 512 * k + j.val; rw [e2, ht]; omega

/-- The weights' block at the point of expert e, tile k: place j, column h is the array at (e, 512 k + j, h). -/
theorem blk1_apply (c : Dev nD) (t : Fin cfg1.N) (e : Fin 8) (k : ℕ) (hk : k < 8) (ht : t.val = 8 * e.val + k)
    (j : Fin 512) (h : Fin 2048) :
    (blk V c 1 t : Vec Ideal S1x512x2048 .f32) (ix3 (0 : Fin 1) j h)
      = wgtArr V c (ix3 e ⟨512 * k + j.val, by have := j.isLt; omega⟩ h) := by
  obtain ⟨-, -, -, e0, e1, e2, -⟩ := idx_facts t
  unfold blk
  rw [View.read_apply]
  show V c main_arg2 _ = V c main_arg2 _
  congr 1
  funext a
  apply Fin.ext
  match a with
  | ⟨0, _⟩ => show win1_1.index t (0 : Fin 3) * 1 + 1 * 0 = e.val; rw [e0, ht]; omega
  | ⟨1, _⟩ => show win1_1.index t (1 : Fin 3) * 512 + 1 * j.val = 512 * k + j.val; rw [e1, ht]; omega
  | ⟨2, _⟩ => show win1_1.index t (2 : Fin 3) * 2048 + 1 * h.val = h.val; rw [e2]; omega

/-- The step at the point of expert e, tile k, at an entry: the accumulator's entry plus the tile's inner product,
    read off the two arrays. -/
theorem step_apply (c : Dev nD) (t : Fin cfg1.N) (e : Fin 8) (k : ℕ) (hk : k < 8) (ht : t.val = 8 * e.val + k)
    (a : Vec Ideal S1024x2048 .f32) (r : Fin 1024) (h : Fin 2048) :
    stepAcc (blk V c 0 t) (blk V c 1 t) a (ix2 r h)
      = a (ix2 r h) + ∑ j : Fin 512, actArr V c (ix3 e r ⟨512 * k + j.val, by have := j.isLt; omega⟩)
          * wgtArr V c (ix3 e ⟨512 * k + j.val, by have := j.isLt; omega⟩ h) := by
  refine (stepAcc_apply _ _ a r h).trans (congrArg (a (ix2 r h) + ·) (Finset.sum_congr rfl fun j _ => ?_))
  rw [blk0_apply V c t e k hk ht r j, blk1_apply V c t e k hk ht j h]

/-- The accumulator after tile k of expert e, at an entry: the sum over the tiles 0 … k of the tiles' inner products. -/
theorem acc_apply (c : Dev nD) (e : Fin 8) (r : Fin 1024) (h : Fin 2048) :
    ∀ (k : ℕ) (hk : k < 8),
      acc V c (8 * e.val + k + 1) (ix2 r h)
        = ∑ k' : Fin (k + 1), ∑ j : Fin 512,
            actArr V c (ix3 e r ⟨512 * k'.val + j.val, by have := k'.isLt; have := j.isLt; omega⟩)
              * wgtArr V c (ix3 e ⟨512 * k'.val + j.val, by have := k'.isLt; have := j.isLt; omega⟩ h)
  | 0, hk => by
    -- the first tile of the expert starts from zero
    have hN : 8 * e.val + 0 < cfg1.N := by show 8 * e.val + 0 < 64; have := e.isLt; omega
    show acc V c ((⟨8 * e.val + 0, hN⟩ : Fin cfg1.N).val + 1) (ix2 r h) = _
    rw [acc_succ, if_pos (show (8 * e.val + 0) % 8 = 0 by omega),
      step_apply V c ⟨8 * e.val + 0, hN⟩ e 0 hk rfl _ r h, zeroAcc_apply, zero_add, Fin.sum_univ_one]
    rfl
  | k + 1, hk => by
    -- a later tile adds its inner product to what the tile before left
    have hN : 8 * e.val + (k + 1) < cfg1.N := by show 8 * e.val + (k + 1) < 64; have := e.isLt; omega
    show acc V c ((⟨8 * e.val + (k + 1), hN⟩ : Fin cfg1.N).val + 1) (ix2 r h) = _
    rw [acc_succ, if_neg (show ¬(8 * e.val + (k + 1)) % 8 = 0 by omega),
      step_apply V c ⟨8 * e.val + (k + 1), hN⟩ e (k + 1) hk rfl _ r h]
    show acc V c (8 * e.val + k + 1) (ix2 r h) + _ = _
    rw [acc_apply c e r h k (by omega)]
    conv_rhs => rw [Fin.sum_univ_castSucc]
    rfl

/-- After an expert's last tile the accumulator's entry is the whole 4096-long contraction: the reference's entry. -/
theorem last_acc_apply (c : Dev nD) (e : Fin 8) (r : Fin 1024) (h : Fin 2048) :
    acc V c (8 * e.val + 7 + 1) (ix2 r h) = Cert.Swiglu.down (V c main_v1) (V c main_arg2) (ix3 e r h) := by
  rw [acc_apply V c e r h 7 (by omega)]
  exact (Cert.Swiglu.sum_tiles fun i => actArr V c (ix3 e r i) * wgtArr V c (ix3 e i h)).symm

/-- The block written from the accumulator only gains the unit axis: its entry (0, r, h) is the accumulator's (r, h). -/
theorem outBlock_apply (a : Vec Ideal S1024x2048 .f32) (y : S1x1024x2048.Idx) :
    outBlock a y = a (ix2 (y 1 : Fin 1024) (y 2 : Fin 2048)) := by
  unfold outBlock k1_pay3
  refine (shapeCast_addUnit_apply ![1024, 2048] a shapeCasts_S1024x2048_S1x1024x2048 y).trans (congrArg a ?_)
  funext b
  match b with
  | ⟨0, _⟩ => rfl
  | ⟨1, _⟩ => rfl

/-- What a point at an expert's last tile writes back is its block of the reference's array. -/
theorem flushed_eq (c : Dev nD) (t : Fin cfg1.N) (hf : (cfg1.win 2).flush t = true) :
    (dat (F := Ideal) V c).flushed 2 t
      = ((cfg1.win 2).blk t).view.read (Elt Ideal) (Cert.Swiglu.down (V c main_v1) (V c main_arg2)) := by
  have h7 : t.val % 8 = 7 := (flush1_2 t).mp hf
  have hlt : t.val < 64 := t.isLt
  obtain ⟨-, -, -, -, -, -, e0, e1, e2⟩ := idx_facts t
  obtain ⟨e, he⟩ : ∃ e : Fin 8, t.val = 8 * e.val + 7 := ⟨⟨t.val / 8, by omega⟩, by show t.val = 8 * (t.val / 8) + 7; omega⟩
  show (cfg1.win 2).cut (grid1.coords t) ((dat (F := Ideal) V c).after 2 t) = _
  rw [after_2]
  funext y
  rw [View.read_apply]
  show outBlock (acc V c (t.val + 1)) y
    = Cert.Swiglu.down (V c main_v1) (V c main_arg2) (((cfg1.win 2).blk t).view.emb y)
  have hy0 : (y 0).val = 0 := by have : (y 0).val < 1 := (y 0).isLt; omega
  -- the block's entry (0, r, h) sits in the array at (e, r, h)
  have hi : ((cfg1.win 2).blk t).view.emb y = ix3 e (y 1 : Fin 1024) (y 2 : Fin 2048) := by
    funext a
    apply Fin.ext
    match a with
    | ⟨0, _⟩ => show win1_2.index t (0 : Fin 3) * 1 + 1 * (y 0).val = e.val; rw [e0, hy0, he]; omega
    | ⟨1, _⟩ => show win1_2.index t (1 : Fin 3) * 1024 + 1 * (y 1).val = (y 1).val; rw [e1]; omega
    | ⟨2, _⟩ => show win1_2.index t (2 : Fin 3) * 2048 + 1 * (y 2).val = (y 2).val; rw [e2]; omega
  have hn : t.val + 1 = 8 * e.val + 7 + 1 := by omega
  rw [hi, outBlock_apply, hn]
  exact last_acc_apply V c e (y 1) (y 2)

/-- Every index (e, r, h) of the result array lies in the block of the point at expert e's last tile. -/
theorem covered (i : S8x1024x2048.Idx) :
    ∃ t : Fin cfg1.N, (cfg1.win 2).flush t = true ∧ i ∈ ((cfg1.win 2).blk t).view.set := by
  have h0 : (i 0).val < 8 := (i 0).isLt
  have h1 : (i 1).val < 1024 := (i 1).isLt
  have h2 : (i 2).val < 2048 := (i 2).isLt
  obtain ⟨t, ht⟩ : ∃ t : Fin cfg1.N, t.val = 8 * (i 0).val + 7 :=
    ⟨⟨8 * (i 0).val + 7, by show 8 * (i 0).val + 7 < 64; omega⟩, rfl⟩
  obtain ⟨-, -, -, -, -, -, e0, e1, e2⟩ := idx_facts t
  refine ⟨t, (flush1_2 t).mpr (by omega), ?_⟩
  show i ∈ ((View.whole main_v2).slice (win1_2.rect t)).set
  rw [View.set_slice_whole, Rect.mem_set_unit]
  intro a
  match a with
  | ⟨0, _⟩ =>
    show win1_2.index t (0 : Fin 3) * 1 ≤ (i 0).val ∧ (i 0).val < win1_2.index t (0 : Fin 3) * 1 + 1
    rw [e0, ht]; omega
  | ⟨1, _⟩ =>
    show win1_2.index t (1 : Fin 3) * 1024 ≤ (i 1).val ∧ (i 1).val < win1_2.index t (1 : Fin 3) * 1024 + 1024
    rw [e1]; omega
  | ⟨2, _⟩ =>
    show win1_2.index t (2 : Fin 3) * 2048 ≤ (i 2).val ∧ (i 2).val < win1_2.index t (2 : Fin 3) * 2048 + 2048
    rw [e2]; omega

/-- After the region the per-expert result array is `Swiglu.down` of the gated activations and the down weights. -/
theorem down_array (c : Dev nD) :
    (dat (F := Ideal) V c).arrAt 2 cfg1.N = Cert.Swiglu.down (V c main_v1) (V c main_arg2) := by
  -- every written block is its block of the reference's array, and the written blocks cover the array
  exact (dat (F := Ideal) V c).arrAt_eq_of_cover 2 (Cert.Swiglu.down (V c main_v1) (V c main_arg2))
    (fun t hf => flushed_eq V c t hf) (fun i => covered i)

end Cert.KernelIdeal.Down

end
-- ==== Proof.Result.lean ====
/-
  The result of the run over the extended reals, in terms of the launch memory: the result buffer is the reshape of
  the per-expert result, which is `Swiglu.down` of the gated activations (themselves `Swiglu.gated` of the reshaped
  tokens and the gate/up weights) and the down weights.
-/
import proofs.«146660_j9483287789704_1_alg».proof.Proof.Gen.KernelIdeal.Launch
import proofs.«146660_j9483287789704_1_alg».proof.Proof.Gen.KernelIdeal.Skeleton
import proofs.«146660_j9483287789704_1_alg».proof.Proof.Gen.KernelIdeal.Points
import proofs.«146660_j9483287789704_1_alg».proof.Proof.MainRun
import proofs.«146660_j9483287789704_1_alg».proof.Proof.Frame
import proofs.«146660_j9483287789704_1_alg».proof.Proof.GateUpValue
import proofs.«146660_j9483287789704_1_alg».proof.Proof.DownValue
import Idealize.ShloMosaic.Lib.StableHlo.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.MainRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt Ideal) ℓ)

/-- The result buffer at the end: the layer of the launch arguments, between the two reshapes. -/
theorem result_value (c : Dev nD) :
    W4 m c main_v3 = shapeCast _ (Cert.Swiglu.down (Cert.Swiglu.gated
        (shapeCast _ (m ((c.tc : Thread nD τ).loc main_arg0)) shapeCasts_S8192x2048_S8x1024x2048)
        (m ((c.tc : Thread nD τ).loc main_arg1))) (m ((c.tc : Thread nD τ).loc main_arg2))) shapeCasts_S8x1024x2048_S8192x2048 := by
  have h3 : W4 m c main_v3 = shapeCast _ (W3 m c main_v2) shapeCasts_S8x1024x2048_S8192x2048 := by
    show StableHlo.after hostOps2 (W3 m c) (Proc.devRef .tc main_v3) = _
    after_results; rfl
  have h2 : W3 m c main_v2 = (Down.dat (V2 m) c).arrAt 2 cfg1.N := by
    unfold W3; exact Function.update_self ..
  have hv1 : V2 m c main_v1 = (GateUp.dat (V1 m) c).arrAt 3 cfg0.N := by
    show W2 m c main_v1 = _; unfold W2; exact Function.update_self ..
  have ha2 : V2 m c main_arg2 = m ((c.tc : Thread nD τ).loc main_arg2) := by
    show W2 m c main_arg2 = _
    have e1 : W2 m c main_arg2 = W1 m c main_arg2 := by
      unfold W2; exact Function.update_of_ne (StableHlo.devRef_ne_of_ne (by decide) : (Proc.devRef .tc main_arg2 : DevRef τ sig) ≠ Proc.devRef .tc main_v1) _ _
    exact e1.trans ((StableHlo.after_of_writes_sub hostOps0 _ hostOps0_writes (by decide)).trans rfl)
  have hv0 : V1 m c main_v0 = shapeCast _ (m ((c.tc : Thread nD τ).loc main_arg0)) shapeCasts_S8192x2048_S8x1024x2048 := by
    show StableHlo.after hostOps0 (W0 m c) (Proc.devRef .tc main_v0) = _
    after_results; rfl
  have ha1 : V1 m c main_arg1 = m ((c.tc : Thread nD τ).loc main_arg1) :=
    (StableHlo.after_of_writes_sub hostOps0 _ hostOps0_writes (by decide)).trans rfl
  rw [h3, h2, Down.down_array, hv1, GateUp.gated_array, ha2, hv0, ha1]

/-- The layer of the launch arguments on core `c`, between the two reshapes. -/
def layer (c : Dev nD) : Buf (Elt Ideal) ((c.tc : Thread nD τ).loc main_v3) :=
  shapeCast _ (Cert.Swiglu.down (Cert.Swiglu.gated
      (shapeCast _ (m ((c.tc : Thread nD τ).loc main_arg0)) shapeCasts_S8192x2048_S8x1024x2048)
      (m ((c.tc : Thread nD τ).loc main_arg1))) (m ((c.tc : Thread nD τ).loc main_arg2))) shapeCasts_S8x1024x2048_S8192x2048

/-- THE KERNEL'S RUN over the extended reals: it terminates, nothing faulting, with the result buffer holding the
    layer of the launch arguments and the arguments unchanged. -/
theorem kernel_run (ρ : Dev nD → PrngReg) :
    θ_run defs (onTc (τ := τ) (main (F := Ideal))) ⟨m, fun _ => 0, ρ⟩ (fun r => ∀ c : Dev nD,
      r.2.mem ((c.tc : Thread nD τ).loc main_v3) = layer m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v3 (by decide))).trans (result_value m c),
     (h c _ (mem_uc main_arg0 (by decide))).trans (W4_of_unwritten m c main_arg0 (by decide) (by decide) (by decide) (by decide)),
     (h c _ (mem_uc main_arg1 (by decide))).trans (W4_of_unwritten m c main_arg1 (by decide) (by decide) (by decide) (by decide)),
     (h c _ (mem_uc main_arg2 (by decide))).trans (W4_of_unwritten m c main_arg2 (by decide) (by decide) (by decide) (by decide))⟩)
    (run_all m ρ)

end Cert.KernelIdeal.MainRun

end
-- ==== Proof.RefValue.lean ====
/-
  The reference, stage by stage, is the layer of `Swiglu`: its first product is `proj` of the tokens grouped
  by expert against the gate/up weights; the two halves of its columns, the host's expansion of the logistic
  function (1 / (1 + exp (−g)), which over the extended reals IS the logistic function) and the two elementwise
  products make `gated`; its second product is `down`. Everything is read index by index through the stages'
  read-at-an-index lemmas; the literal one is the real number 1.
-/
import proofs.«146660_j9483287789704_1_alg».proof.Proof.Gen.ReferenceIdeal.Run
import proofs.«146660_j9483287789704_1_alg».proof.Proof.Gen.ReferenceIdeal.Read
import proofs.«146660_j9483287789704_1_alg».proof.Proof.Spec
import Idealize.ShloMosaic.PureOps.IdealRules
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx

/-- The word 0x3F800000 is the real number one. -/
theorem one_f32 : Ideal.ofBits .f32 0x3F800000#32 = 1 := IdealRules.sign_bit.ideal_onePat .f32

/-- The reference's first product, at an index, is `proj` of the grouped tokens and the gate/up weights. -/
theorem proj_eq (x0 : (⟨S8192x2048, .f32⟩ : BufTy).Contents (Elt Ideal)) (x1 : (⟨S8x2048x8192, .f32⟩ : BufTy).Contents (Elt Ideal))
    (i : S8x1024x8192.Idx) :
    val_main_v1 (F := Ideal) x0 x1 i = Cert.Swiglu.proj (val_main_v0 (F := Ideal) x0) x1 (i 0) (i 1) (i 2) := by
  rw [val_main_v1_apply]
  unfold Cert.Swiglu.proj
  refine Finset.sum_congr rfl fun k _ => ?_
  have el : lidx_main_v1 i k = ix3 (n0 := 8) (n1 := 1024) (n2 := 2048) (i 0) (i 1) k :=
    funext fun a => Fin.ext (by match a with | ⟨0, _⟩ => rfl | ⟨1, _⟩ => rfl | ⟨2, _⟩ => rfl)
  have er : ridx_main_v1 i k = ix3 (n0 := 8) (n1 := 2048) (n2 := 8192) (i 0) k (i 2) :=
    funext fun a => Fin.ext (by match a with | ⟨0, _⟩ => rfl | ⟨1, _⟩ => rfl | ⟨2, _⟩ => rfl)
  rw [el, er]

/-- The reference's gated activations, at an index, are `gated` of the grouped tokens and the gate/up weights. -/
theorem gated_eq (x0 : (⟨S8192x2048, .f32⟩ : BufTy).Contents (Elt Ideal)) (x1 : (⟨S8x2048x8192, .f32⟩ : BufTy).Contents (Elt Ideal))
    (i : S8x1024x4096.Idx) :
    val_main_v5 (F := Ideal) x0 x1 i = Cert.Swiglu.gated (val_main_v0 (F := Ideal) x0) x1 i := by
  rw [val_main_v5_apply, val_main_v3_apply, val_main_v4_apply, val_main_call0_v5_apply, val_main_call0_v4_apply,
    val_main_call0_cst_0_apply, val_main_call0_v3_apply, val_main_call0_v2_apply, val_main_call0_cst_apply,
    val_main_call0_v1_apply, val_main_call0_v0_apply, val_main_v2_apply, proj_eq, proj_eq]
  unfold Cert.Swiglu.gated
  simp only [Ideal.mulf_def, Ideal.hostDivf_def, Ideal.addf_def, Ideal.hostUnary_exp_def, Ideal.hostNegf_def,
    Ideal.negf_def, Ideal.ofBits_def, one_f32, Ideal.logistic]
  have e3 : (idx_main_v3 i 2 : Fin 8192) = ⟨(i 2).val + 4096, by have := (i 2).isLt; simp only [Matrix.cons_val_two, Matrix.tail_cons, Matrix.head_cons] at this ⊢; omega⟩ :=
    Fin.ext (Nat.add_comm _ _)
  rw [e3]
  rfl

/-- The reference's second product, at an index, is `down` of the gated activations and the down weights. -/
theorem down_eq (x0 : (⟨S8192x2048, .f32⟩ : BufTy).Contents (Elt Ideal)) (x1 : (⟨S8x2048x8192, .f32⟩ : BufTy).Contents (Elt Ideal))
    (x2 : (⟨S8x4096x2048, .f32⟩ : BufTy).Contents (Elt Ideal)) (i : S8x1024x2048.Idx) :
    val_main_v6 (F := Ideal) x0 x1 x2 i
      = Cert.Swiglu.down (Cert.Swiglu.gated (val_main_v0 (F := Ideal) x0) x1) x2 i := by
  rw [val_main_v6_apply]
  unfold Cert.Swiglu.down
  refine Finset.sum_congr rfl fun k _ => ?_
  have el : lidx_main_v6 i k = ix3 (n0 := 8) (n1 := 1024) (n2 := 4096) (i 0) (i 1) k :=
    funext fun a => Fin.ext (by match a with | ⟨0, _⟩ => rfl | ⟨1, _⟩ => rfl | ⟨2, _⟩ => rfl)
  have er : ridx_main_v6 i k = ix3 (n0 := 8) (n1 := 4096) (n2 := 2048) (i 0) k (i 2) :=
    funext fun a => Fin.ext (by match a with | ⟨0, _⟩ => rfl | ⟨1, _⟩ => rfl | ⟨2, _⟩ => rfl)
  rw [el, er, gated_eq]

/-- The reference's result is the layer: `down` of `gated`, between the two reshapes. -/
theorem result_eq (x0 : (⟨S8192x2048, .f32⟩ : BufTy).Contents (Elt Ideal)) (x1 : (⟨S8x2048x8192, .f32⟩ : BufTy).Contents (Elt Ideal))
    (x2 : (⟨S8x4096x2048, .f32⟩ : BufTy).Contents (Elt Ideal)) :
    val_main_v7 (F := Ideal) x0 x1 x2
      = shapeCast _ (Cert.Swiglu.down (Cert.Swiglu.gated (shapeCast _ x0 shapeCasts_S8192x2048_S8x1024x2048) x1) x2)
          shapeCasts_S8x1024x2048_S8192x2048 := by
  unfold val_main_v7
  exact congrArg (fun y => shapeCast _ y shapeCasts_S8x1024x2048_S8192x2048) (funext fun i => down_eq x0 x1 x2 i)

end Cert.ReferenceIdeal.RefValue

end
-- ==== Proof.lean ====
/-
  A mixture-of-experts SwiGLU layer: eight experts, 1024 tokens each, hidden size 2048, expert size 4096. The kernel
  runs two gridded regions — the gate/up projection with the gating, then the down projection accumulated over
  eight tiles of the contraction —, the reference two batched matrix products around the same gating.

  The frames: each kernel program's run is one launch over its four items (reshape, region, region, reshape), whose
  last contents leave every argument as launched; the reference is straight-line host code.
  Nothing was rewritten by the idealization, so there is nothing to preserve.
  Over the extended reals both programs compute, between the same two reshapes, `down (gated x W) D`: the kernel
  tile by tile (a sum over the 4096-long contraction is the sum over its eight tiles, whatever the summands), the
  reference in one product; a change of float format is the identity and the host's 1 / (1 + exp (−g)) is the
  logistic function.
-/
import proofs.«146660_j9483287789704_1_alg».proof.Defs
import proofs.«146660_j9483287789704_1_alg».proof.Proof.Gen.Kernel
import proofs.«146660_j9483287789704_1_alg».proof.Proof.Gen.KernelIdeal
import proofs.«146660_j9483287789704_1_alg».proof.Proof.Gen.ReferenceIdeal
import proofs.«146660_j9483287789704_1_alg».proof.Proof.Gen.Pre_finite_inputs
import proofs.«146660_j9483287789704_1_alg».proof.Proof.Gen.ReferenceIdeal.Run
import proofs.«146660_j9483287789704_1_alg».proof.Proof.Gen.ReferenceIdeal.Read
import proofs.«146660_j9483287789704_1_alg».proof.Proof.Bits.Frame
import proofs.«146660_j9483287789704_1_alg».proof.Proof.Frame
import proofs.«146660_j9483287789704_1_alg».proof.Proof.Result
import proofs.«146660_j9483287789704_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs to the end and leaves its arguments unchanged. -/
theorem frame_kernel : Cert.frame_Kernel (hKernel := Cert.Kernel.Gen.facts) (hPre_finite_inputs := Cert.Pre_finite_inputs.Gen.facts) :=
  fun m ρ _ => Cert.Kernel.MainRun.frame m ρ

/-- So does the idealized kernel. -/
theorem frame_kernelIdeal : Cert.frame_KernelIdeal (hKernelIdeal := Cert.KernelIdeal.Gen.facts) (hPre_finite_inputs := Cert.Pre_finite_inputs.Gen.facts) :=
  fun m ρ _ => Cert.KernelIdeal.MainRun.frame m ρ

/-- The reference is straight-line host code: its run, the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments both programs end with the layer of those arguments in their result. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.MainRun.layer m c, Cert.KernelIdeal.MainRun.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.result_eq, (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
